-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x2048x512 : Shape := ⟨3, ![32, 2048, 512]⟩
abbrev S32 : Shape := ⟨1, ![32]⟩
abbrev S512x512 : Shape := ⟨2, ![512, 512]⟩
abbrev S512x1024 : Shape := ⟨2, ![512, 1024]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg2 : IVec S32 32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_c_6 : IVec S_ 32 := constantI S_ 32 1#32
  let main_v19 : IVec S32 32 := broadcastInDim S32 ![] bcast_S_S32 main_c_6
  let main_v20 : IVec S32 1 := cmpi .sge main_arg2 main_v19
  let main_c_7 : IVec S_ 1 := constantI S_ 1 1#1
  let main_v21 : IVec S_ 1 := (fun x v => Host.reduce IntOp.andi x v reducesTo_S32_S_d0 h_S_) main_v20 main_c_7
  let main_v22 : IVec S_ 1 := andi main_v18 main_v21
  main_v22

def fn {F : FTy → Type} [FloatOps F] (main_arg0 : FVec F S32x512x512 .f32) (main_arg1 : FVec F S32x2048x512 .f32) (main_arg2 : IVec S32 32) (main_arg3 : FVec F S512x512 .f32) (main_arg4 : FVec F S512x1024 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg2 main_v13 main_v16
-- ==== Kernel.lean ====
abbrev S32x512x512 : Shape := ⟨3, ![32, 512, 512]⟩
abbrev S32x2048x512 : Shape := ⟨3, ![32, 2048, 512]⟩
abbrev S32 : Shape := ⟨1, ![32]⟩
abbrev S512x512 : Shape := ⟨2, ![512, 512]⟩
abbrev S512x1024 : Shape := ⟨2, ![512, 1024]⟩
abbrev S512x16384 : Shape := ⟨2, ![512, 16384]⟩
abbrev S512x65536 : Shape := ⟨2, ![512, 65536]⟩
abbrev S1x512x512 : Shape := ⟨3, ![1, 512, 512]⟩
abbrev S1x2048x512 : Shape := ⟨3, ![1, 2048, 512]⟩
abbrev S512x2048 : Shape := ⟨2, ![512, 2048]⟩
abbrev S1 : Shape := ⟨1, ![1]⟩
abbrev S2048x512 : Shape := ⟨2, ![2048, 512]⟩
abbrev S512 : Shape := ⟨1, ![512]⟩
abbrev S512x1 : Shape := ⟨2, ![512, 1]⟩
abbrev S512x32x512 : Shape := ⟨3, ![512, 32, 512]⟩
abbrev S512x32x2048 : Shape := ⟨3, ![512, 32, 2048]⟩

abbrev nBuf : Space → Nat
  | .hbm => 16
  | .vmem => 11
  | .smem => 1
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S512x512, .f32⟩
  | .hbm, ⟨3, _⟩ => ⟨S512x1024, .f32⟩
  | .hbm, ⟨4, _⟩ => ⟨S512x512, .f32⟩
  | .hbm, ⟨5, _⟩ => ⟨S512x512, .bf16⟩
  | .hbm, ⟨6, _⟩ => ⟨S512x512, .f32⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .f32⟩
  | .hbm, ⟨11, _⟩ => ⟨S512x512, .bf16⟩
  | .hbm, ⟨12, _⟩ => ⟨S512x16384, .f32⟩
  | .hbm, ⟨13, _⟩ => ⟨S512x65536, .f32⟩
  | .hbm, ⟨14, _⟩ => ⟨S512x32x512, .f32⟩
  | .hbm, ⟨15, _⟩ => ⟨S512x32x2048, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x2048, .f32⟩
  | .local _ .vmem, ⟨10, _⟩ => ⟨S512x2048, .f32⟩
  | .local _ .smem, ⟨0, _⟩ => ⟨S32, .i32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x512_S512x512_1_0 : S512x512.Transposes [1, 0] S512x512
  bitsLt_bf16_f32 : FTy.bits .bf16 < FTy.bits .f32
  slices_S512x1024_S512x512_0_0 : S512x1024.Slices ![0, 0] S512x512
  slices_S512x1024_S512x512_0_512 : S512x1024.Slices ![0, 512] S512x512
  numel1_S1 : S1.numel = 1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  shapeCasts_S512x16384_S512x32x512 : S512x16384.ShapeCasts S512x32x512
  shapeCasts_S512x65536_S512x32x2048 : S512x65536.ShapeCasts S512x32x2048
  dot_S512x512_S512x512_S512x512_1_0_0_1_n_n_wf : DotDims.WF S512x512 S512x512 S512x512 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S32x2048x512.size a
  hwx0_1 : ∀ i : grid0.Coords, EltTy.bits .f32 = 32 ∨ (Rect.block (s := S32x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x16384.size a
  hwx0_5 : ∀ i : grid0.Coords, EltTy.bits .f32 = 32 ∨ (Rect.block (s := S512x16384) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x65536.size a
  hwx0_6 : ∀ i : grid0.Coords, EltTy.bits .f32 = 32 ∨ (Rect.block (s := S512x65536) S512x2048.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_arg1) S1x2048x512.size reads0_1 false false 2 stage0_1 sem0_1 nbuf0_1 hstage0_1

abbrev spec0_2 : Pipeline.WinSpec sig grid0.rank :=
  Pipeline.WinSpec.ofSpec (Memref.whole main_v1) S512x512.size reads0_2 false true 1 stage0_2 sem0_2 nbuf0_2 hstage0_2

abbrev spec0_3 : Pipeline.WinSpec sig grid0.rank :=
  Pipeline.WinSpec.ofSpec (Memref.whole main_v4) S512x512.size reads0_3 false true 1 stage0_3 sem0_3 nbuf0_3 hstage0_3

abbrev spec0_4 : Pipeline.WinSpec sig grid0.rank :=
  Pipeline.WinSpec.ofSpec (Memref.whole main_v7) S512x512.size reads0_4 false true 1 stage0_4 sem0_4 nbuf0_4 hstage0_4

abbrev spec0_5 : Pipeline.WinSpec sig grid0.rank :=
  Pipeline.WinSpec.ofSpec (Memref.whole main_v8_0) S512x512.size reads0_5 true false 2 stage0_5 sem0_5 nbuf0_5 hstage0_5

abbrev spec0_6 : Pipeline.WinSpec sig grid0.rank :=
  Pipeline.WinSpec.ofSpec (Memref.whole main_v8_1) S512x2048.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S32x512x512 : Shape := ⟨3, ![32, 512, 512]⟩
abbrev S32x2048x512 : Shape := ⟨3, ![32, 2048, 512]⟩
abbrev S32 : Shape := ⟨1, ![32]⟩
abbrev S512x512 : Shape := ⟨2, ![512, 512]⟩
abbrev S512x1024 : Shape := ⟨2, ![512, 1024]⟩
abbrev S32x512x2048 : Shape := ⟨3, ![32, 512, 2048]⟩
abbrev S2048 : Shape := ⟨1, ![2048]⟩
abbrev S1x1x2048 : Shape := ⟨3, ![1, 1, 2048]⟩
abbrev S32x1x1 : Shape := ⟨3, ![32, 1, 1]⟩
abbrev S32x1x2048 : Shape := ⟨3, ![32, 1, 2048]⟩
abbrev S_ : Shape := ⟨0, ![]⟩
abbrev S32x512 : Shape := ⟨2, ![32, 512]⟩
abbrev S32x512x1 : Shape := ⟨3, ![32, 512, 1]⟩
abbrev S32x512x1024 : Shape := ⟨3, ![32, 512, 1024]⟩
abbrev S512x32x512 : Shape := ⟨3, ![512, 32, 512]⟩
abbrev S512x32x2048 : Shape := ⟨3, ![512, 32, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S32, .i32⟩
  | .hbm, ⟨3, _⟩ => ⟨S512x512, .f32⟩
  | .hbm, ⟨4, _⟩ => ⟨S512x1024, .f32⟩
  | .hbm, ⟨5, _⟩ => ⟨S32x512x512, .f32⟩
  | .hbm, ⟨6, _⟩ => ⟨S32x512x2048, .f32⟩
  | .hbm, ⟨7, _⟩ => ⟨S2048, .i32⟩
  | .hbm, ⟨8, _⟩ => ⟨S1x1x2048, .i32⟩
  | .hbm, ⟨9, _⟩ => ⟨S32x1x1, .i32⟩
  | .hbm, ⟨10, _⟩ => ⟨S32x1x2048, .i32⟩
  | .hbm, ⟨11, _⟩ => ⟨S32x1x2048, .i32⟩
  | .hbm, ⟨12, _⟩ => ⟨S32x1x2048, .i1⟩
  | .hbm, ⟨13, _⟩ => ⟨S_, .f32⟩
  | .hbm, ⟨14, _⟩ => ⟨S_, .f32⟩
  | .hbm, ⟨15, _⟩ => ⟨S32x512x2048, .i1⟩
  | .hbm, ⟨16, _⟩ => ⟨S32x512x2048, .f32⟩
  | .hbm, ⟨17, _⟩ => ⟨S32x512x2048, .f32⟩
  | .hbm, ⟨18, _⟩ => ⟨S_, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x512x1, .f32⟩
  | .hbm, ⟨24, _⟩ => ⟨S32x512x2048, .f32⟩
  | .hbm, ⟨25, _⟩ => ⟨S32x512x2048, .f32⟩
  | .hbm, ⟨26, _⟩ => ⟨S32x512x2048, .f32⟩
  | .hbm, ⟨27, _⟩ => ⟨S_, .f32⟩
  | .hbm, ⟨28, _⟩ => ⟨S32x512, .f32⟩
  | .hbm, ⟨29, _⟩ => ⟨S32x512x1, .f32⟩
  | .hbm, ⟨30, _⟩ => ⟨S32x512x2048, .f32⟩
  | .hbm, ⟨31, _⟩ => ⟨S32x512x2048, .f32⟩
  | .hbm, ⟨32, _⟩ => ⟨S32x512x512, .f32⟩
  | .hbm, ⟨33, _⟩ => ⟨S32x512x1024, .f32⟩
  | .hbm, ⟨34, _⟩ => ⟨S32x512x512, .f32⟩
  | .hbm, ⟨35, _⟩ => ⟨S32x512x512, .f32⟩
  | .hbm, ⟨36, _⟩ => ⟨S512x32x512, .f32⟩
  | .hbm, ⟨37, _⟩ => ⟨S512x32x2048, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S32_S32x1x1_0 : S32.BroadcastsInDim S32x1x1 (![0] : Fin 1 → Fin S32x1x1.rank)
  bcast_S1x1x2048_S32x1x2048_0_1_2 : S1x1x2048.BroadcastsInDim S32x1x2048 (![0, 1, 2] : Fin 3 → Fin S32x1x2048.rank)
  bcast_S32x1x1_S32x1x2048_0_1_2 : S32x1x1.BroadcastsInDim S32x1x2048 (![0, 1, 2] : Fin 3 → Fin S32x1x2048.rank)
  bcast_S32x1x2048_S32x512x2048_0_1_2 : S32x1x2048.BroadcastsInDim S32x512x2048 (![0, 1, 2] : Fin 3 → Fin S32x512x2048.rank)
  bcast_S_S32x512x2048 : S_.BroadcastsInDim S32x512x2048 (![] : Fin 0 → Fin S32x512x2048.rank)
  reducesTo_S32x512x2048_S32x512_d2 : S32x512x2048.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x2048_0_1_2 : S32x512x1.BroadcastsInDim S32x512x2048 (![0, 1, 2] : Fin 3 → Fin S32x512x2048.rank)
  concatenates_S32x512x512_S32x512x512_S32x512x1024_d2 : Shape.Concatenates [S32x512x512, S32x512x512] S32x512x1024 2
  transposes_S32x512x512_S512x32x512_1_0_2 : S32x512x512.Transposes [1, 0, 2] S512x32x512
  transposes_S32x512x2048_S512x32x2048_1_0_2 : S32x512x2048.Transposes [1, 0, 2] S512x32x2048
  dot_S32x512x512_S512x512_S32x512x512_2_1_01_0_n_n_wf : DotDims.WF S32x512x512 S512x512 S32x512x512 [2] [1] [0, 1] [0] [] []
  dot_S32x512x512_S32x2048x512_S32x512x2048_2_2_1_1_0_0_wf : DotDims.WF S32x512x512 S32x2048x512 S32x512x2048 [2] [2] [1] [1] [0] [0]
  dot_S32x512x2048_S32x2048x512_S32x512x512_2_1_1_2_0_0_wf : DotDims.WF S32x512x2048 S32x2048x512 S32x512x512 [2] [1] [1] [2] [0] [0]
  dot_S32x512x1024_S512x1024_S32x512x512_2_1_01_0_n_n_wf : DotDims.WF S32x512x1024 S512x1024 S32x512x512 [2] [1] [0, 1] [0] [] []

variable [Facts₀]

def dot_S32x512x512_S512x512_S32x512x512_2_1_01_0_n_n : DotDims S32x512x512 S512x512 S32x512x512 where
  lhsContracting := [2]
  rhsContracting := [1]
  lhsNonContracting := [0, 1]
  rhsNonContracting := [0]
  lhsBatch := []
  rhsBatch := []
  wf := dot_S32x512x512_S512x512_S32x512x512_2_1_01_0_n_n_wf
def dot_S32x512x512_S32x2048x512_S32x512x2048_2_2_1_1_0_0 : DotDims S32x512x512 S32x2048x512 S32x512x2048 where
  lhsContracting := [2]
  rhsContracting := [2]
  lhsNonContracting := [1]
  rhsNonContracting := [1]
  lhsBatch := [0]
  rhsBatch := [0]
  wf := dot_S32x512x512_S32x2048x512_S32x512x2048_2_2_1_1_0_0_wf
def dot_S32x512x2048_S32x2048x512_S32x512x512_2_1_1_2_0_0 : DotDims S32x512x2048 S32x2048x512 S32x512x512 where
  lhsContracting := [2]
  rhsContracting := [1]
  lhsNonContracting := [1]
  rhsNonContracting := [2]
  lhsBatch := [0]
  rhsBatch := [0]
  wf := dot_S32x512x2048_S32x2048x512_S32x512x512_2_1_1_2_0_0_wf
def dot_S32x512x1024_S512x1024_S32x512x512_2_1_01_0_n_n : DotDims S32x512x1024 S512x1024 S32x512x512 where
  lhsContracting := [2]
  rhsContracting := [1]
  lhsNonContracting := [0, 1]
  rhsNonContracting := [0]
  lhsBatch := []
  rhsBatch := []
  wf := dot_S32x512x1024_S512x1024_S32x512x512_2_1_01_0_n_n_wf

class Facts : Prop extends Facts₀ where

variable [Facts]
-- ==== Proof.Spec.lean ====
/-
  Global attention over one batch element, on the extended reals, and the two result arrays as whole-array functions.

  For a decoder block D (512 target rows of 512 features), an encoder block E (2048 source rows of 512 features),
  the input projection W (row o, column h) and a length word L:
    query  q(t, o)   = sum over h of D(t, h) * W(o, h)
    score  a(t, s)   = sum over h of q(t, h) * E(s, h)
    masked x(t, s)   = a(t, s) where the source position s is (signed) below L, and minus infinity elsewhere
    shifted p(t, s)  = exp (x(t, s) - max over s' of x(t, s'))
    denom  l(t)      = sum over s of p(t, s)
  The attention weights are p / l; they are written here in two spellings, the quotient p(t, s) / l(t) and the
  product p(t, s) * (1 / l(t)), which agree wherever l(t) is not zero. The context row is c(t, h) = sum over s of
  w(t, s) * E(s, h), and the output row is tanh of the projection of the row (c(t, ·), D(t, ·)) of length 1024 by the
  output weights, again in two spellings: one sum over the 1024 joined columns, or the sum over the context half plus
  the sum over the decoder half.
-/
import Idealize.ShloMosaic.PureOps.Ideal
import Idealize.ShloMosaic.Lib.ValueIdx

noncomputable section

namespace Cert.Attn

open Idealize.ShloMosaic Idealize.ShloMosaic.ValueIdx

/-! ## One batch element -/

section Batch

variable (D : Fin 512 → Fin 512 → EReal) (E : Fin 2048 → Fin 512 → EReal) (W : Fin 512 → Fin 512 → EReal) (L : BitVec 32)

/-- The projected query: row t of D against row o of W. -/
def query (t o : Fin 512) : EReal := ∑ h : Fin 512, D t h * W o h

/-- The alignment score of target row t with source row s. -/
def score (t : Fin 512) (s : Fin 2048) : EReal := ∑ h : Fin 512, query D W t h * E s h

/-- Source position s is kept when it is below the length, compared signed as 32-bit words. -/
def keep (s : Fin 2048) : BitVec 1 := IntOp.cmpi .slt (BitVec.ofNat 32 s.val) L

/-- The score where the position is kept, minus infinity where it is masked. -/
def masked (t : Fin 512) (s : Fin 2048) : EReal := Scalar.select (keep L s) (score D E W t s) ⊥

/-- The maximum of a row of 2048 extended reals, folded from minus infinity. -/
def rowMax (x : Fin 2048 → EReal) : EReal := (Finset.univ : Finset (Fin 2048)).fold max ⊥ x

/-- The exponential of the masked score shifted by its row's maximum. -/
def shifted (t : Fin 512) (s : Fin 2048) : EReal := Ideal.exp (masked D E W L t s - rowMax (masked D E W L t))

/-- The normaliser of row t. -/
def denom (t : Fin 512) : EReal := ∑ s : Fin 2048, shifted D E W L t s

/-- The attention weights as a quotient. -/
def weights (t : Fin 512) (s : Fin 2048) : EReal := Ideal.div (shifted D E W L t s) (denom D E W L t)

/-- The attention weights as a product with the reciprocal of the normaliser. -/
def weightsMul (t : Fin 512) (s : Fin 2048) : EReal := shifted D E W L t s * Ideal.div 1 (denom D E W L t)

end Batch

/-- The context row: the weights of row t against column h of the encoder block. -/
def context (E : Fin 2048 → Fin 512 → EReal) (A : Fin 512 → Fin 2048 → EReal) (t h : Fin 512) : EReal :=
  ∑ s : Fin 2048, A t s * E s h

/-- The output row with the projection split in its context half and its decoder half. -/
def hiddenSplit (D : Fin 512 → Fin 512 → EReal) (E : Fin 2048 → Fin 512 → EReal) (Wc Wd : Fin 512 → Fin 512 → EReal)
    (A : Fin 512 → Fin 2048 → EReal) (t o : Fin 512) : EReal :=
  Ideal.tanh ((∑ k : Fin 512, context E A t k * Wc o k) + ∑ k : Fin 512, D t k * Wd o k)

/-- The joined row of length 1024: the context row, then the decoder row. -/
def joined (D : Fin 512 → Fin 512 → EReal) (E : Fin 2048 → Fin 512 → EReal) (A : Fin 512 → Fin 2048 → EReal)
    (t : Fin 512) (k : Fin 1024) : EReal :=
  if h : k.val < 512 then context E A t ⟨k.val, h⟩ else D t ⟨k.val - 512, by omega⟩

/-- The output row with the projection as one sum over the joined row. -/
def hiddenCat (D : Fin 512 → Fin 512 → EReal) (E : Fin 2048 → Fin 512 → EReal) (Wo : Fin 512 → Fin 1024 → EReal)
    (A : Fin 512 → Fin 2048 → EReal) (t o : Fin 512) : EReal :=
  Ideal.tanh (∑ k : Fin 1024, joined D E A t k * Wo o k)

/-! ## The argument arrays, sliced -/

/-- Batch element b of the decoder array. -/
def decAt (x0 : (⟨3, ![32, 512, 512]⟩ : Shape).Idx → EReal) (b : Fin 32) : Fin 512 → Fin 512 → EReal := fun t h => x0 (ix3 b t h)
/-- Batch element b of the encoder array. -/
def encAt (x1 : (⟨3, ![32, 2048, 512]⟩ : Shape).Idx → EReal) (b : Fin 32) : Fin 2048 → Fin 512 → EReal := fun s h => x1 (ix3 b s h)
/-- The input projection, row o, column h. -/
def winAt (x3 : (⟨2, ![512, 512]⟩ : Shape).Idx → EReal) : Fin 512 → Fin 512 → EReal := fun o h => x3 (ix2 o h)
/-- The output projection, row o, column k of 1024. -/
def woutAt (x4 : (⟨2, ![512, 1024]⟩ : Shape).Idx → EReal) : Fin 512 → Fin 1024 → EReal := fun o k => x4 (ix2 o k)
/-- Its first 512 columns (they meet the context row). -/
def woutLo (x4 : (⟨2, ![512, 1024]⟩ : Shape).Idx → EReal) : Fin 512 → Fin 512 → EReal :=
  fun o k => x4 (ix2 o (⟨k.val, by omega⟩ : Fin 1024))
/-- Its last 512 columns (they meet the decoder row). -/
def woutHi (x4 : (⟨2, ![512, 1024]⟩ : Shape).Idx → EReal) : Fin 512 → Fin 512 → EReal :=
  fun o k => x4 (ix2 o (⟨512 + k.val, by omega⟩ : Fin 1024))
/-- The length word of batch element b. -/
def lenAt (x2 : (⟨1, ![32]⟩ : Shape).Idx → BitVec 32) (b : Fin 32) : BitVec 32 := x2 (ix1 b)

/-! ## The two results, indexed (target row, batch element, column) -/

section Results

variable (x0 : (⟨3, ![32, 512, 512]⟩ : Shape).Idx → EReal) (x1 : (⟨3, ![32, 2048, 512]⟩ : Shape).Idx → EReal)
  (x2 : (⟨1, ![32]⟩ : Shape).Idx → BitVec 32) (x3 : (⟨2, ![512, 512]⟩ : Shape).Idx → EReal)
  (x4 : (⟨2, ![512, 1024]⟩ : Shape).Idx → EReal)

/-- The attention weights array, product spelling. -/
def alignMul : (⟨3, ![512, 32, 2048]⟩ : Shape).Idx → EReal := fun i =>
  weightsMul (decAt x0 (i 1)) (encAt x1 (i 1)) (winAt x3) (lenAt x2 (i 1)) (i 0) (i 2)

/-- The attention weights array, quotient spelling. -/
def alignDiv : (⟨3, ![512, 32, 2048]⟩ : Shape).Idx → EReal := fun i =>
  weights (decAt x0 (i 1)) (encAt x1 (i 1)) (winAt x3) (lenAt x2 (i 1)) (i 0) (i 2)

/-- The output array: product weights, split projection. -/
def hiddenMul : (⟨3, ![512, 32, 512]⟩ : Shape).Idx → EReal := fun i =>
  hiddenSplit (decAt x0 (i 1)) (encAt x1 (i 1)) (woutLo x4) (woutHi x4)
    (weightsMul (decAt x0 (i 1)) (encAt x1 (i 1)) (winAt x3) (lenAt x2 (i 1))) (i 0) (i 2)

/-- The output array: quotient weights, joined projection. -/
def hiddenDiv : (⟨3, ![512, 32, 512]⟩ : Shape).Idx → EReal := fun i =>
  hiddenCat (decAt x0 (i 1)) (encAt x1 (i 1)) (woutAt x4)
    (weights (decAt x0 (i 1)) (encAt x1 (i 1)) (winAt x3) (lenAt x2 (i 1))) (i 0) (i 2)

end Results

/-! ## The domain on which the two spellings agree -/

/-- Every entry is a real number. -/
def Finite {S : Shape} (x : S.Idx → EReal) : Prop := ∀ i, ∃ r : ℝ, x i = (r : EReal)

/-- Every length is at least one, read signed. -/
def LenPos (x2 : (⟨1, ![32]⟩ : Shape).Idx → BitVec 32) : Prop := ∀ b : Fin 32, 1 ≤ (x2 (ix1 b)).toInt

end Cert.Attn

end
-- ==== Proof.Law.lean ====
/-
  The two spellings of the attention results agree on the stated domain.
-/
import proofs.«405795_j15736760172825_3_alg».proof.Proof.Spec

noncomputable section

namespace Cert.Attn

open Idealize.ShloMosaic Idealize.ShloMosaic.ValueIdx

/-! ## Extended reals: real values, nonnegative exponentials -/

/-- The exponential of an extended real is nonnegative. -/
private theorem exp_nonneg (x : EReal) : 0 ≤ Ideal.exp x := by
  induction x using EReal.rec with
  | bot => exact le_of_eq Ideal.exp_bot.symm
  | coe r => rw [Ideal.exp_coe]; exact_mod_cast (Real.exp_pos r).le
  | top => rw [Ideal.exp_top]; exact le_top

/-- A finite sum of real numbers is a real number. -/
private theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- A product of two real numbers is a real number. -/
private theorem real_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- A row whose entries are all below plus infinity has its maximum below plus infinity. -/
private theorem rowMax_lt_top (x : Fin 2048 → EReal) (hx : ∀ s, x s < ⊤) : rowMax x < ⊤ := by
  unfold rowMax
  rw [Finset.fold_max_lt]
  exact ⟨bot_lt_top, fun s _ => hx s⟩

/-- Every entry of a row is at most the row's maximum. -/
private theorem le_rowMax (x : Fin 2048 → EReal) (s : Fin 2048) : x s ≤ rowMax x := by
  unfold rowMax
  rw [Finset.le_fold_max]
  exact Or.inr ⟨s, Finset.mem_univ s, le_rfl⟩

/-! ## One batch element: the normaliser is positive, so the two spellings of the weights agree -/

section Batch

variable (D : Fin 512 → Fin 512 → EReal) (E : Fin 2048 → Fin 512 → EReal) (W : Fin 512 → Fin 512 → EReal) (L : BitVec 32)

/-- With real entries everywhere, every score is a real number. -/
private theorem score_real (hD : ∀ t h, ∃ r : ℝ, D t h = (r : EReal)) (hE : ∀ s h, ∃ r : ℝ, E s h = (r : EReal))
    (hW : ∀ o h, ∃ r : ℝ, W o h = (r : EReal)) (t : Fin 512) (s : Fin 2048) : ∃ r : ℝ, score D E W t s = (r : EReal) := by
  unfold score
  refine real_sum _ _ fun h _ => real_mul ?_ (hE s h)
  unfold query
  exact real_sum _ _ fun k _ => real_mul (hD t k) (hW h k)

/-- Source position 0 is kept when the length is at least one. -/
private theorem keep_zero (hL : 1 ≤ L.toInt) : keep L (0 : Fin 2048) = 1#1 := by
  have h : (BitVec.ofNat 32 (0 : Fin 2048).val).slt L = true := by
    rw [BitVec.slt_iff_toInt_lt]
    have h0 : (BitVec.ofNat 32 (0 : Fin 2048).val).toInt = 0 := by decide
    omega
  show BitVec.ofBool ((BitVec.ofNat 32 (0 : Fin 2048).val).slt L) = 1#1
  rw [h]
  rfl

/-- A masked score is a real number or minus infinity, so it is below plus infinity. -/
private theorem masked_lt_top (hS : ∀ t s, ∃ r : ℝ, score D E W t s = (r : EReal)) (t : Fin 512) (s : Fin 2048) :
    masked D E W L t s < ⊤ := by
  unfold masked Scalar.select
  split
  · obtain ⟨r, hr⟩ := hS t s
    rw [hr]
    exact EReal.coe_lt_top r
  · exact bot_lt_top

/-- The shifted exponential at source position 0 is positive: there the masked score is a real number, and the row's
    maximum is a real number above it. -/
private theorem shifted_zero_pos (hS : ∀ t s, ∃ r : ℝ, score D E W t s = (r : EReal)) (hL : 1 ≤ L.toInt) (t : Fin 512) :
    0 < shifted D E W L t 0 := by
  obtain ⟨r, hr⟩ := hS t 0
  have hm0 : masked D E W L t 0 = (r : EReal) := by
    have hk : keep L (0 : Fin 2048) = 1 := keep_zero L hL
    unfold masked Scalar.select
    rw [if_pos hk, hr]
  have hlt : rowMax (masked D E W L t) < ⊤ := rowMax_lt_top _ (masked_lt_top D E W L hS t)
  have hle : (r : EReal) ≤ rowMax (masked D E W L t) := hm0 ▸ le_rowMax (masked D E W L t) 0
  have hbot : rowMax (masked D E W L t) ≠ ⊥ := fun h => by
    rw [h] at hle
    exact absurd hle (not_le.mpr (EReal.bot_lt_coe r))
  obtain ⟨m, hm⟩ : ∃ m : ℝ, rowMax (masked D E W L t) = (m : EReal) := ⟨_, (EReal.coe_toReal hlt.ne hbot).symm⟩
  unfold shifted
  rw [hm0, hm, ← EReal.coe_sub, Ideal.exp_coe]
  exact_mod_cast Real.exp_pos _

/-- The normaliser is positive: its terms are nonnegative and its term at source position 0 is positive. -/
private theorem denom_pos (hS : ∀ t s, ∃ r : ℝ, score D E W t s = (r : EReal)) (hL : 1 ≤ L.toInt) (t : Fin 512) :
    0 < denom D E W L t := by
  unfold denom
  exact lt_of_lt_of_le (shifted_zero_pos D E W L hS hL t)
    (Finset.single_le_sum (f := fun s => shifted D E W L t s) (fun s _ => exp_nonneg _) (Finset.mem_univ 0))

/-- Off a zero normaliser, p * (1 / l) is p / l. -/
private theorem weightsMul_eq_weights (t : Fin 512) (s : Fin 2048) (h : denom D E W L t ≠ 0) :
    weightsMul D E W L t s = weights D E W L t s := by
  unfold weightsMul weights Ideal.div
  rw [if_neg h, if_neg h, one_mul]

end Batch

/-! ## The projection of the joined row, split in its two halves -/

/-- A sum over 1024 columns is the sum over the first 512 plus the sum over the last 512. -/
private theorem sum_split (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- For any weights, the split projection is the projection of the joined row. -/
private theorem hiddenSplit_eq_hiddenCat (D : Fin 512 → Fin 512 → EReal) (E : Fin 2048 → Fin 512 → EReal)
    (x4 : (⟨2, ![512, 1024]⟩ : Shape).Idx → EReal) (A : Fin 512 → Fin 2048 → EReal) (t o : Fin 512) :
    hiddenSplit D E (woutLo x4) (woutHi x4) A t o = hiddenCat D E (woutAt x4) A t o := by
  have h1 : ∀ k : Fin 512, joined D E A t (⟨k.val, by omega⟩ : Fin 1024) = context E A t k := fun k => by
    unfold joined
    rw [dif_pos k.isLt]
  have h2 : ∀ k : Fin 512, joined D E A t (⟨512 + k.val, by omega⟩ : Fin 1024) = D t k := fun k => by
    unfold joined
    rw [dif_neg (by simp)]
    congr 1
    apply Fin.ext
    simp
  unfold hiddenSplit hiddenCat
  rw [sum_split]
  simp only [h1, h2]
  rfl

/-! ## The two results -/

/-- On the stated domain the two spellings of the weights of a batch element agree. -/
private theorem weightsMul_eq_weights_at (x0 : (⟨3, ![32, 512, 512]⟩ : Shape).Idx → EReal) (x1 : (⟨3, ![32, 2048, 512]⟩ : Shape).Idx → EReal)
    (x2 : (⟨1, ![32]⟩ : Shape).Idx → BitVec 32) (x3 : (⟨2, ![512, 512]⟩ : Shape).Idx → EReal)
    (h0 : Finite x0) (h1 : Finite x1) (h3 : Finite x3) (hL : LenPos x2) (b : Fin 32) :
    weightsMul (decAt x0 b) (encAt x1 b) (winAt x3) (lenAt x2 b) = weights (decAt x0 b) (encAt x1 b) (winAt x3) (lenAt x2 b) := by
  funext t s
  have hS : ∀ t s, ∃ r : ℝ, score (decAt x0 b) (encAt x1 b) (winAt x3) t s = (r : EReal) :=
    score_real _ _ _ (fun t h => h0 (ix3 b t h)) (fun s h => h1 (ix3 b s h)) (fun o h => h3 (ix2 o h))
  exact weightsMul_eq_weights _ _ _ _ t s (denom_pos _ _ _ _ hS (hL b) t).ne'

theorem alignMul_eq_alignDiv (x0 : (⟨3, ![32, 512, 512]⟩ : Shape).Idx → EReal) (x1 : (⟨3, ![32, 2048, 512]⟩ : Shape).Idx → EReal)
    (x2 : (⟨1, ![32]⟩ : Shape).Idx → BitVec 32) (x3 : (⟨2, ![512, 512]⟩ : Shape).Idx → EReal)
    (h0 : Finite x0) (h1 : Finite x1) (h3 : Finite x3) (hL : LenPos x2) :
    alignMul x0 x1 x2 x3 = alignDiv x0 x1 x2 x3 := by
  funext i
  unfold alignMul alignDiv
  rw [weightsMul_eq_weights_at x0 x1 x2 x3 h0 h1 h3 hL (i 1)]

theorem hiddenMul_eq_hiddenDiv (x0 : (⟨3, ![32, 512, 512]⟩ : Shape).Idx → EReal) (x1 : (⟨3, ![32, 2048, 512]⟩ : Shape).Idx → EReal)
    (x2 : (⟨1, ![32]⟩ : Shape).Idx → BitVec 32) (x3 : (⟨2, ![512, 512]⟩ : Shape).Idx → EReal) (x4 : (⟨2, ![512, 1024]⟩ : Shape).Idx → EReal)
    (h0 : Finite x0) (h1 : Finite x1) (h3 : Finite x3) (hL : LenPos x2) :
    hiddenMul x0 x1 x2 x3 x4 = hiddenDiv x0 x1 x2 x3 x4 := by
  funext i
  unfold hiddenMul hiddenDiv
  rw [weightsMul_eq_weights_at x0 x1 x2 x3 h0 h1 h3 hL (i 1)]
  exact hiddenSplit_eq_hiddenCat _ _ x4 _ _ _

end Cert.Attn

end
-- ==== Proof.PreFacts.lean ====
/-
  What the precondition says of the argument arrays: the float arrays hold real numbers and every length is at least one.
-/
import proofs.«405795_j15736760172825_3_alg».proof.Pre_finite_inputs
import proofs.«405795_j15736760172825_3_alg».proof.Proof.Spec
import Idealize.ShloMosaic.Lib.ReduceAll

noncomputable section

namespace Cert.Attn

open Idealize.ShloMosaic Idealize.ShloMosaic.ValueIdx

variable [Cert.Pre_finite_inputs.Facts]

/-- The shape of rank zero has exactly one index. -/
private instance : Subsingleton Cert.Pre_finite_inputs.S_.Idx := ⟨fun a b => funext fun d => d.elim0⟩

/-- The f32 word 0x7F800000 is plus infinity. -/
private theorem ofBits_inf : Ideal.ofBits .f32 0x7F800000#32 = ⊤ := by simp [Ideal.ofBits, Ideal.ieee]

/-- An extended real x with max x (-x) strictly below plus infinity is a real number: at either infinity that
    maximum is plus infinity itself. -/
private theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An array whose every entry passes the test |x| < +inf holds real numbers only. -/
private theorem finite_of_test {S : Shape} (x : FVec Ideal S .f32)
    (hb : Cert.Pre_finite_inputs.S_.BroadcastsInDim S (![] : Fin 0 → Fin S.rank))
    (h : ∀ i, cmpf .olt (Host.absf x)
      (broadcastInDim S ![] hb (constant (F := Ideal) Cert.Pre_finite_inputs.S_ .f32 0x7F800000#32)) i = 1#1) :
    Finite x := fun i => real_of_abs_lt_inf (x i) (h i)

theorem domain_of_pre (x0 : FVec Ideal Cert.Pre_finite_inputs.S32x512x512 .f32) (x1 : FVec Ideal Cert.Pre_finite_inputs.S32x2048x512 .f32)
    (x2 : IVec Cert.Pre_finite_inputs.S32 32) (x3 : FVec Ideal Cert.Pre_finite_inputs.S512x512 .f32)
    (x4 : FVec Ideal Cert.Pre_finite_inputs.S512x1024 .f32)
    (h : Cert.Pre_finite_inputs.fn (F := Ideal) x0 x1 x2 x3 x4 = fun _ => 1#1) :
    Finite x0 ∧ Finite x1 ∧ Finite x3 ∧ LenPos x2 := by
  have h0 := congrFun h ValueIdx.ix0
  dsimp only [Cert.Pre_finite_inputs.fn, Cert.Pre_finite_inputs.fn_part1] at h0
  -- the result is the conjunction of five tests, nested to the left
  obtain ⟨h0123, hlen⟩ := IntOp.andi_eq_one.1 h0
  obtain ⟨h012, _⟩ := IntOp.andi_eq_one.1 h0123
  obtain ⟨h01, hx3⟩ := IntOp.andi_eq_one.1 h012
  obtain ⟨hx0, hx1⟩ := IntOp.andi_eq_one.1 h01
  refine ⟨finite_of_test x0 _ fun i => Host.reduce_andi_all _ _ _ _ ix0 hx0 i,
    finite_of_test x1 _ fun i => Host.reduce_andi_all _ _ _ _ ix0 hx1 i,
    finite_of_test x3 _ fun i => Host.reduce_andi_all _ _ _ _ ix0 hx3 i, fun b => ?_⟩
  -- the length test at batch element b: the signed compare of the word against the constant one
  have hb : IntOp.cmpi .sge (x2 (ix1 b)) 1#32 = 1#1 := Host.reduce_andi_all _ _ _ _ ix0 hlen (ix1 b)
  have := IntOp.cmpi_sge.1 hb
  simpa using this

end Cert.Attn

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.KernelPay.lean ====
/-
  The kernel body's two stored values, read at an index on the extended reals.
-/
import proofs.«405795_j15736760172825_3_alg».proof.Proof.Gen.KernelIdeal.Skeleton
import proofs.«405795_j15736760172825_3_alg».proof.Proof.Spec
import proofs.«405795_j15736760172825_3_alg».proof.Proof.LibColumns
import proofs.«405795_j15736760172825_3_alg».proof.Proof.LibPlainDot
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

variable [Cert.KernelIdeal.Facts]

/-- The decoder block as rows. -/
abbrev decRows (v2 : Vec Ideal S1x512x512 .f32) : Fin 512 → Fin 512 → EReal := fun t h => v2 (ix3 (0 : Fin 1) t h)
/-- The encoder block as rows. -/
abbrev encRows (v5 : Vec Ideal S1x2048x512 .f32) : Fin 2048 → Fin 512 → EReal := fun s h => v5 (ix3 (0 : Fin 1) s h)
/-- A transposed weight block read as (row o, column h). -/
abbrev colsOf (v : Vec Ideal S512x512 .bf16) : Fin 512 → Fin 512 → EReal := fun o h => v (ix2 h o)

/-! ## The three products read at an index -/

/-- The square product's dimension numbers are the plain ones. -/
private theorem dotSq_eq : dot_S512x512_S512x512_S512x512_1_0_0_1_n_n = DotDims.plain 512 512 512 := rfl

/-- The context product's dimension numbers are the plain ones. -/
private theorem dotCtx_eq : dot_S512x2048_S2048x512_S512x512_1_0_0_1_n_n = DotDims.plain 512 2048 512 := rfl

/-- A square product into the zero accumulator: row p of the left operand against column q of the right one. -/
private theorem mmSq_apply (l r : FVec Ideal S512x512 .bf16) (p q : Fin 512) :
    matmul dot_S512x512_S512x512_S512x512_1_0_0_1_n_n none l r (constant (F := Ideal) S512x512 .f32 0x00000000#32) (ix2 p q)
      = ∑ k : Fin 512, l (ix2 p k) * r (ix2 k q) := by
  rw [dotSq_eq]
  exact PlainDot.matmul_zero_apply 512 512 512 none l r p q

/-- The context product into the zero accumulator: row p of the weights against column q of the encoder block. -/
private theorem mmCtx_apply (l : FVec Ideal S512x2048 .bf16) (r : FVec Ideal S2048x512 .bf16) (p q : Fin 512) :
    matmul dot_S512x2048_S2048x512_S512x512_1_0_0_1_n_n none l r (constant (F := Ideal) S512x512 .f32 0x00000000#32) (ix2 p q)
      = ∑ k : Fin 2048, l (ix2 p k) * r (ix2 k q) := by
  rw [dotCtx_eq]
  exact PlainDot.matmul_zero_apply 512 2048 512 none l r p q

private theorem lhsSc_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
private theorem lhsSc_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
private theorem rhsSc_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
private theorem rhsSc_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The score product contracts the last axis of both operands: row t of the left one against row s of the right one. -/
private theorem mmSc_apply (l : FVec Ideal S512x512 .bf16) (r : FVec Ideal S2048x512 .bf16) (t : Fin 512) (s : Fin 2048) :
    matmul dot_S512x512_S2048x512_S512x2048_1_1_0_0_n_n none l r (constant (F := Ideal) S512x2048 .f32 0x00000000#32) (ix2 t s)
      = ∑ h : Fin 512, l (ix2 t h) * r (ix2 s h) := by
  refine (Ideal.matmul_constant_zero_apply dot_S512x512_S2048x512_S512x2048_1_1_0_0_n_n none l r (ix2 t s)).trans ?_
  rw [← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 t s) ((ValueIdx.contrEquiv1 dot_S512x512_S2048x512_S512x2048_1_1_0_0_n_n 512 rfl rfl).symm k) = ix2 t k := funext fun a => Fin.ext (by
    match a with
    | ⟨0, _⟩ => exact lhsSc_0 _ _
    | ⟨1, _⟩ => exact (lhsSc_1 _ _).trans hk)
  have er : dot_S512x512_S2048x512_S512x2048_1_1_0_0_n_n.rhsIdx (ix2 t s) ((ValueIdx.contrEquiv1 dot_S512x512_S2048x512_S512x2048_1_1_0_0_n_n 512 rfl rfl).symm k) = ix2 s k := funext fun a => Fin.ext (by
    match a with
    | ⟨0, _⟩ => exact rhsSc_0 _ _
    | ⟨1, _⟩ => exact (rhsSc_1 _ _).trans hk)
  rw [el, er]

/-! ## The row reductions, the keepdims column, the mask and the constants -/

/-- The index a row reduction reads: the row, then the reduced coordinate. -/
private theorem lift_row (t : Fin 512) (k : Fin 2048) : reduces_S512x2048_S512.lift (ix1 t) k = ix2 t k :=
  funext fun a => Fin.ext (by
    match a with
    | ⟨0, _⟩ => rfl
    | ⟨1, _⟩ => rfl)

/-- The pattern of minus infinity. -/
private theorem ofBits_negInf : Ideal.ofBits .f32 0xFF800000#32 = ⊥ := by simp [Ideal.ofBits, Ideal.ieee]

/-- The pattern of one. -/
private theorem ofBits_one : Scalar.ofBits (F := Ideal) .f32 0x3F800000#32 = 1 := by
  show Ideal.ofBits .f32 0x3F800000#32 = 1
  simp [Ideal.ofBits, Ideal.ieee, -EReal.coe_mul]; norm_num

/-- The named fill is minus infinity. -/
private theorem negBig : Named.named (F := Ideal) κ "neg_big" (φ := .f32) 0xFF333332#32 = ⊥ :=
  IdealRules.named_const.ideal_named_scalar _ _ _ _ rfl

/-- A row's maximum over the 2048 columns. -/
private theorem rowMax_apply (src : FVec Ideal S512x2048 .f32) (t : Fin 512) :
    multiReduction .maximumf [1] S512 src 0xFF800000#32 reduces_S512x2048_S512 (.inl rfl) rfl (ix1 t)
      = Attn.rowMax fun s => src (ix2 t s) := by
  refine (Ideal.multiReduction_maximumf_single src 0xFF800000#32 reduces_S512x2048_S512 (.inl rfl) rfl (ix1 t)).trans ?_
  unfold Attn.rowMax
  rw [Ideal.ofBits_def, ofBits_negInf]
  exact congrArg (fun f : Fin 2048 → EReal => Finset.fold max ⊥ f Finset.univ) (funext fun k => congrArg src (lift_row t k))

/-- A row's sum over the 2048 columns. -/
private theorem rowSum_apply (src : FVec Ideal S512x2048 .f32) (t : Fin 512) :
    multiReduction .add [1] S512 src 0x00000000#32 reduces_S512x2048_S512 (.inl rfl) rfl (ix1 t)
      = ∑ s : Fin 2048, src (ix2 t s) := by
  refine (Ideal.multiReduction_add_single src 0x00000000#32 reduces_S512x2048_S512 (.inl rfl) rfl (ix1 t)).trans ?_
  exact Finset.sum_congr rfl fun k _ => congrArg src (lift_row t k)

/-- A vector of row values kept as a column and spread over the columns reads the row's value. -/
private theorem spread_apply (x : FVec Ideal S512 .f32) (t : Fin 512) (s : Fin 2048) :
    broadcastTo S512x2048 (shapeCast S512x1 x shapeCasts_S512_S512x1) broadcasts_S512x1_S512x2048 (ix2 t s) = x (ix1 t) :=
  (Columns.broadcastTo_a1_ab_apply _ broadcasts_S512x1_S512x2048 t s).trans
    (Columns.shapeCast_a_a1_apply x shapeCasts_S512_S512x1 t (0 : Fin 1))

/-- The mask: the column number, as a word, signed below the length. -/
private theorem mask_apply (v1 : Elt Ideal .i32) (t : Fin 512) (s : Fin 2048) :
    cmpi .slt (iota .tc S512x2048 32 [1] iota_S512x2048_d1_w32) (broadcast S512x2048 v1) (ix2 t s) = Attn.keep v1 s :=
  congrArg (fun x => IntOp.cmpi .slt x v1) (iota_single_apply .tc S512x2048 32 1 iota_S512x2048_d1_w32 (ix2 t s))

/-! ## The body's stages, each read at an index -/

/-- The decoder block cast to two axes reads the rows. -/
private theorem pay2_apply (v2 : Vec Ideal S1x512x512 .f32) (t h : Fin 512) :
    k0_pay2 (F := Ideal) v2 (ix2 t h) = decRows v2 t h := by
  unfold k0_pay2
  exact shapeCast_1ab_ab_apply v2 shapeCasts_S1x512x512_S512x512 t h

/-- The encoder block cast to two axes reads the rows. -/
private theorem pay3_apply (v5 : Vec Ideal S1x2048x512 .f32) (s : Fin 2048) (h : Fin 512) :
    k0_pay3 (F := Ideal) v5 (ix2 s h) = encRows v5 s h := by
  unfold k0_pay3
  exact shapeCast_1ab_ab_apply v5 shapeCasts_S1x2048x512_S2048x512 s h

/-- The projected query, as the body computes it. -/
private def qV (v2 : Vec Ideal S1x512x512 .f32) (v8 : Vec Ideal S512x512 .bf16) : FVec Ideal S512x512 .f32 :=
  matmul dot_S512x512_S512x512_S512x512_1_0_0_1_n_n none (k0_pay2 (F := Ideal) v2)
    (shapeCast S512x512 v8 shapeCasts_S512x512_S512x512 : FVec Ideal S512x512 .bf16) (constant S512x512 .f32 0x00000000#32)

/-- The scores, as the body computes them. -/
private def scV (v2 : Vec Ideal S1x512x512 .f32) (v5 : Vec Ideal S1x2048x512 .f32) (v8 : Vec Ideal S512x512 .bf16) :
    FVec Ideal S512x2048 .f32 :=
  matmul dot_S512x512_S2048x512_S512x2048_1_1_0_0_n_n none (truncf .bf16 (qV v2 v8) bitsLt_bf16_f32)
    (k0_pay3 (F := Ideal) v5) (constant S512x2048 .f32 0x00000000#32)

/-- The masked scores, as the body computes them. -/
private def mkV (v1 : Elt Ideal .i32) (v2 : Vec Ideal S1x512x512 .f32) (v5 : Vec Ideal S1x2048x512 .f32)
    (v8 : Vec Ideal S512x512 .bf16) : FVec Ideal S512x2048 .f32 :=
  select (cmpi .slt (iota .tc S512x2048 32 [1] iota_S512x2048_d1_w32) (broadcast S512x2048 v1)) (scV v2 v5 v8)
    (broadcast S512x2048 (Named.named (F := Ideal) κ "neg_big" (φ := .f32) 0xFF333332#32))

/-- The shifted exponentials, as the body computes them. -/
private def exV (v1 : Elt Ideal .i32) (v2 : Vec Ideal S1x512x512 .f32) (v5 : Vec Ideal S1x2048x512 .f32)
    (v8 : Vec Ideal S512x512 .bf16) : FVec Ideal S512x2048 .f32 :=
  exp (subf (mkV v1 v2 v5 v8)
    (broadcastTo S512x2048
      (shapeCast S512x1 (multiReduction .maximumf [1] S512 (mkV v1 v2 v5 v8) 0xFF800000#32 reduces_S512x2048_S512 (.inl rfl) rfl)
        shapeCasts_S512_S512x1)
      broadcasts_S512x1_S512x2048))

/-- The body's weights are the shifted exponentials times the spread reciprocal of their row sums. -/
private theorem pay6_eq (v1 : Elt Ideal .i32) (v2 : Vec Ideal S1x512x512 .f32) (v5 : Vec Ideal S1x2048x512 .f32)
    (v8 : Vec Ideal S512x512 .bf16) :
    k0_pay6 (F := Ideal) v1 v2 v5 v8
      = mulf (exV v1 v2 v5 v8)
          (broadcastTo S512x2048
            (divf (broadcast S512x1 (Scalar.ofBits (F := Ideal) .f32 0x3F800000#32))
              (shapeCast S512x1 (multiReduction .add [1] S512 (exV v1 v2 v5 v8) 0x00000000#32 reduces_S512x2048_S512 (.inl rfl) rfl)
                shapeCasts_S512_S512x1))
            broadcasts_S512x1_S512x2048) := rfl

private theorem qV_apply (v2 : Vec Ideal S1x512x512 .f32) (v8 : Vec Ideal S512x512 .bf16) (t o : Fin 512) :
    qV v2 v8 (ix2 t o) = Attn.query (decRows v2) (colsOf v8) t o := by
  unfold qV Attn.query
  refine (mmSq_apply _ _ t o).trans ?_
  refine Finset.sum_congr rfl fun k _ => ?_
  exact congrArg₂ (· * ·) (pay2_apply v2 t k) (congrFun (shapeCast_self v8 shapeCasts_S512x512_S512x512) (ix2 k o))

private theorem scV_apply (v2 : Vec Ideal S1x512x512 .f32) (v5 : Vec Ideal S1x2048x512 .f32) (v8 : Vec Ideal S512x512 .bf16)
    (t : Fin 512) (s : Fin 2048) :
    scV v2 v5 v8 (ix2 t s) = Attn.score (decRows v2) (encRows v5) (colsOf v8) t s := by
  unfold scV Attn.score
  refine (mmSc_apply _ _ t s).trans ?_
  refine Finset.sum_congr rfl fun h _ => ?_
  exact congrArg₂ (· * ·) ((truncf_apply (qV v2 v8) bitsLt_bf16_f32 (ix2 t h)).trans (qV_apply v2 v8 t h)) (pay3_apply v5 s h)

private theorem mkV_apply (v1 : Elt Ideal .i32) (v2 : Vec Ideal S1x512x512 .f32) (v5 : Vec Ideal S1x2048x512 .f32)
    (v8 : Vec Ideal S512x512 .bf16) (t : Fin 512) (s : Fin 2048) :
    mkV v1 v2 v5 v8 (ix2 t s) = Attn.masked (decRows v2) (encRows v5) (colsOf v8) v1 t s := by
  unfold mkV Attn.masked
  rw [select_apply, mask_apply, scV_apply, broadcast_apply, negBig]

private theorem exV_apply (v1 : Elt Ideal .i32) (v2 : Vec Ideal S1x512x512 .f32) (v5 : Vec Ideal S1x2048x512 .f32)
    (v8 : Vec Ideal S512x512 .bf16) (t : Fin 512) (s : Fin 2048) :
    exV v1 v2 v5 v8 (ix2 t s) = Attn.shifted (decRows v2) (encRows v5) (colsOf v8) v1 t s := by
  have hm : (fun s' : Fin 2048 => mkV v1 v2 v5 v8 (ix2 t s')) = Attn.masked (decRows v2) (encRows v5) (colsOf v8) v1 t :=
    funext fun s' => mkV_apply v1 v2 v5 v8 t s'
  unfold exV Attn.shifted
  show Ideal.exp (mkV v1 v2 v5 v8 (ix2 t s)
      - broadcastTo S512x2048
          (shapeCast S512x1 (multiReduction .maximumf [1] S512 (mkV v1 v2 v5 v8) 0xFF800000#32 reduces_S512x2048_S512 (.inl rfl) rfl)
            shapeCasts_S512_S512x1)
          broadcasts_S512x1_S512x2048 (ix2 t s)) = _
  rw [spread_apply, rowMax_apply, hm, mkV_apply]

theorem pay6_apply (v1 : Elt Ideal .i32) (v2 : Vec Ideal S1x512x512 .f32) (v5 : Vec Ideal S1x2048x512 .f32) (v8 : Vec Ideal S512x512 .bf16)
    (t : Fin 512) (s : Fin 2048) :
    k0_pay6 (F := Ideal) v1 v2 v5 v8 (ix2 t s) = Attn.weightsMul (decRows v2) (encRows v5) (colsOf v8) v1 t s := by
  have hx : (fun s' : Fin 2048 => exV v1 v2 v5 v8 (ix2 t s')) = Attn.shifted (decRows v2) (encRows v5) (colsOf v8) v1 t :=
    funext fun s' => exV_apply v1 v2 v5 v8 t s'
  rw [pay6_eq]
  unfold Attn.weightsMul Attn.denom
  rw [mulf_apply, Columns.broadcastTo_a1_ab_apply, divf_apply, broadcast_apply, Columns.shapeCast_a_a1_apply, rowSum_apply,
    ofBits_one, hx, exV_apply]

/-- The context block the body feeds the output projection: the weights against the encoder block's columns. -/
private theorem pay7_apply (v1 : Elt Ideal .i32) (v2 : Vec Ideal S1x512x512 .f32) (v5 : Vec Ideal S1x2048x512 .f32)
    (v8 : Vec Ideal S512x512 .bf16) (t k : Fin 512) :
    k0_pay7 (F := Ideal) v1 v2 v5 v8 (ix2 t k)
      = Attn.context (encRows v5) (Attn.weightsMul (decRows v2) (encRows v5) (colsOf v8) v1) t k := by
  unfold k0_pay7 Attn.context
  show matmul dot_S512x2048_S2048x512_S512x512_1_0_0_1_n_n none
      (truncf .bf16 (k0_pay6 (F := Ideal) v1 v2 v5 v8) bitsLt_bf16_f32) (k0_pay3 (F := Ideal) v5)
      (constant S512x512 .f32 0x00000000#32) (ix2 t k) = _
  refine (mmCtx_apply _ _ t k).trans (Finset.sum_congr rfl fun s _ => ?_)
  exact congrArg₂ (· * ·)
    ((truncf_apply (k0_pay6 (F := Ideal) v1 v2 v5 v8) bitsLt_bf16_f32 (ix2 t s)).trans (pay6_apply v1 v2 v5 v8 t s))
    (pay3_apply v5 s k)

/-- A weight block cast to its own shape is itself. -/
private theorem pay4_eq (v10 : Vec Ideal S512x512 .bf16) : k0_pay4 (F := Ideal) v10 = v10 := by
  unfold k0_pay4
  exact shapeCast_self v10 shapeCasts_S512x512_S512x512

private theorem pay5_eq (v12 : Vec Ideal S512x512 .bf16) : k0_pay5 (F := Ideal) v12 = v12 := by
  unfold k0_pay5
  exact shapeCast_self v12 shapeCasts_S512x512_S512x512

theorem pay1_apply (v1 : Elt Ideal .i32) (v2 : Vec Ideal S1x512x512 .f32) (v5 : Vec Ideal S1x2048x512 .f32) (v8 v10 v12 : Vec Ideal S512x512 .bf16)
    (t o : Fin 512) :
    k0_pay1 (F := Ideal) (k0_pay2 v2) (k0_pay4 v10) (k0_pay5 v12) (k0_pay7 v1 v2 v5 v8) (ix2 t o)
      = Attn.hiddenSplit (decRows v2) (encRows v5) (colsOf v10) (colsOf v12)
          (Attn.weightsMul (decRows v2) (encRows v5) (colsOf v8) v1) t o := by
  unfold k0_pay1 Attn.hiddenSplit
  show Ideal.tanh
      (matmul dot_S512x512_S512x512_S512x512_1_0_0_1_n_n none (k0_pay7 (F := Ideal) v1 v2 v5 v8) (k0_pay4 (F := Ideal) v10)
          (constant S512x512 .f32 0x00000000#32) (ix2 t o)
        + matmul dot_S512x512_S512x512_S512x512_1_0_0_1_n_n none (k0_pay2 (F := Ideal) v2) (k0_pay5 (F := Ideal) v12)
          (constant S512x512 .f32 0x00000000#32) (ix2 t o)) = _
  refine congrArg Ideal.tanh (congrArg₂ (· + ·) ?_ ?_)
  · refine (mmSq_apply _ _ t o).trans (Finset.sum_congr rfl fun k _ => ?_)
    exact congrArg₂ (· * ·) (pay7_apply v1 v2 v5 v8 t k) (congrFun (pay4_eq v10) (ix2 k o))
  · refine (mmSq_apply _ _ t o).trans (Finset.sum_congr rfl fun k _ => ?_)
    exact congrArg₂ (· * ·) (pay2_apply v2 t k) (congrFun (pay5_eq v12) (ix2 k o))

end Cert.KernelIdeal.Pay

end
-- ==== Proof.KernelHost.lean ====
/-
  What the region finds in the three weight arrays the host lines before it write, and in the length table.
-/
import proofs.«405795_j15736760172825_3_alg».proof.Proof.Gen.KernelIdeal.Frame
import proofs.«405795_j15736760172825_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostVals

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The transposed input projection: entry (h, o) is the argument's entry (o, h). -/
theorem V_main_v1_apply (c : Dev nD) (h o : Fin 512) :
    (V m c main_v1 : S512x512.Idx → EReal) (ix2 h o) = (m ((c : Thread nD τ).loc main_arg3) : S512x512.Idx → EReal) (ix2 o h) := by
  -- The whole array: the argument transposed, then narrowed (the identity on extended reals).
  have e : (V m c main_v1 : S512x512.Idx → EReal)
      = truncf (F := Ideal) .bf16 (transpose S512x512 [1, 0]
          (m ((c : Thread nD τ).loc main_arg3) : FVec Ideal S512x512 .f32) transposes_S512x512_S512x512_1_0 : FVec Ideal S512x512 .f32) bitsLt_bf16_f32 := by
    show StableHlo.after hostOps0 (fun b => m (c, b)) (Proc.devRef .tc main_v1) = _
    after_results
  rw [e, truncf_apply]
  exact transpose_ix2_apply _ _ h o

/-- The transposed first half of the output projection: entry (k, o) is the argument's entry (o, k). -/
theorem V_main_v4_apply (c : Dev nD) (k o : Fin 512) :
    (V m c main_v4 : S512x512.Idx → EReal) (ix2 k o) = Attn.woutLo (m ((c : Thread nD τ).loc main_arg4)) o k := by
  -- The whole array: columns 0 … 511 of the argument, transposed, then narrowed.
  have e : (V m c main_v4 : S512x512.Idx → EReal)
      = truncf (F := Ideal) .bf16 (transpose S512x512 [1, 0]
          (extractStridedSlice S512x512 ![0, 0] (m ((c : Thread nD τ).loc main_arg4) : FVec Ideal S512x1024 .f32)
            slices_S512x1024_S512x512_0_0 : FVec Ideal S512x512 .f32)
          transposes_S512x512_S512x512_1_0 : FVec Ideal S512x512 .f32) bitsLt_bf16_f32 := by
    show StableHlo.after hostOps0 (fun b => m (c, b)) (Proc.devRef .tc main_v4) = _
    after_results
  rw [e, truncf_apply]
  refine (transpose_ix2_apply _ _ k o).trans ?_
  -- Column k of the cut is column 0 + k of the argument.
  exact slice2_axis1_apply 0 _ _ o k ⟨k.val, by omega⟩ (Nat.zero_add _).symm

/-- The transposed second half of the output projection: entry (k, o) is the argument's entry (o, 512 + k). -/
theorem V_main_v7_apply (c : Dev nD) (k o : Fin 512) :
    (V m c main_v7 : S512x512.Idx → EReal) (ix2 k o) = Attn.woutHi (m ((c : Thread nD τ).loc main_arg4)) o k := by
  -- The whole array: columns 512 … 1023 of the argument, transposed, then narrowed.
  have e : (V m c main_v7 : S512x512.Idx → EReal)
      = truncf (F := Ideal) .bf16 (transpose S512x512 [1, 0]
          (extractStridedSlice S512x512 ![0, 512] (m ((c : Thread nD τ).loc main_arg4) : FVec Ideal S512x1024 .f32)
            slices_S512x1024_S512x512_0_512 : FVec Ideal S512x512 .f32)
          transposes_S512x512_S512x512_1_0 : FVec Ideal S512x512 .f32) bitsLt_bf16_f32 := by
    show StableHlo.after hostOps0 (fun b => m (c, b)) (Proc.devRef .tc main_v7) = _
    after_results
  rw [e, truncf_apply]
  refine (transpose_ix2_apply _ _ k o).trans ?_
  -- Column k of the cut is column 512 + k of the argument.
  exact slice2_axis1_apply 512 _ _ o k ⟨512 + k.val, by omega⟩ rfl

end Cert.KernelIdeal.HostVals

end
-- ==== Proof.KernelValue.lean ====
/-
  The kernel's two results, read off its frame run.

  The pallas_call runs one grid point per batch element. At point t the body is handed batch element t of the decoder
  and encoder arrays, the three transposed weight arrays whole, and the length table; it stores the attention weights
  block and the output block, each by one store that covers its staging buffer. The weights block of point t is columns
  [2048 t, 2048 t + 2048) of a flat array of 512 rows, the output block columns [512 t, 512 t + 512): the 32 blocks
  tile each flat array, so after the region each holds the whole result, and the host lines after the region only cast
  the flat arrays to (target row, batch element, column).
-/
import proofs.«405795_j15736760172825_3_alg».proof.Proof.Gen.KernelIdeal.Frame
import proofs.«405795_j15736760172825_3_alg».proof.Proof.Spec
import proofs.«405795_j15736760172825_3_alg».proof.Proof.KernelPay
import proofs.«405795_j15736760172825_3_alg».proof.Proof.KernelHost
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Value

open Cert.KernelIdeal Cert.KernelIdeal.Gen

section Pieces
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The length word the body loads: the table's entry at the grid coordinate. -/
def lenWord (c : Dev nD) (i : grid0.Coords) (xt0 : TbBuf0 (F := F) c tbM0_0) : Elt F .i32 :=
  (xt0 : S32.Idx → Elt F .i32) (ix1 (⟨(i 0).val, (i 0).isLt⟩ : Fin 32))

/-- The load of one word of the table at the offset the body computes from the grid coordinate reads that entry. -/
theorem lenWord_read (c : Dev nD) (i : grid0.Coords) (xt0 : TbBuf0 (F := F) c tbM0_0) (inb) (hpos) :
    View.ld (View.read (Elt F) (View.whole main_arg2) xt0)
        (Rect.unit (s := S32) ![BitVec.toNat (Scalar.indexCast (BitVec.ofNat 32 (i 0).val))] ![1] inb) (Shape.Idx.first hpos)
      = lenWord c i xt0 := by
  show (xt0 : S32.Idx → Elt F .i32) _ = (xt0 : S32.Idx → Elt F .i32) _
  refine congrArg _ (funext fun a => Fin.ext ?_)
  have h32 : (i 0).val < 32 := (i 0).isLt
  have hn : BitVec.toNat (Scalar.indexCast (BitVec.ofNat 32 (i 0).val)) = (i 0).val := by
    show (BitVec.ofNat 32 (i 0).val).toNat = _
    rw [BitVec.toNat_ofNat]; omega
  match a with
  | ⟨0, _⟩ =>
    first
    | (show BitVec.toNat (Scalar.indexCast (BitVec.ofNat 32 (i 0).val)) + 1 * 0 = (i 0).val; omega)
    | (show BitVec.toNat (Scalar.indexCast (BitVec.ofNat 32 (i 0).val)) + 0 = (i 0).val; omega)
    | (show BitVec.toNat (Scalar.indexCast (BitVec.ofNat 32 (i 0).val)) = (i 0).val; exact hn)

theorem out6_eq (c : Dev nD) (i : grid0.Coords) (arg2 : Memref sig .tc .vmem S1x512x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x2048 .f32) (harg8 : arg8.IsWhole) (x0 : Vec F S1x512x512 .f32) (x1 : Vec F S1x2048x512 .f32) (x2 : Vec F S512x512 .bf16) (x3 : Vec F S512x512 .bf16) (x4 : Vec F S512x512 .bf16) (xt0 : TbBuf0 (F := F) c tbM0_0) :
    out0_A_6 c i arg2 harg2 arg3 harg3 arg4 harg4 arg5 harg5 arg6 harg6 arg7 harg7 arg8 harg8 x0 x1 x2 x3 x4 xt0 = k0_pay6 (lenWord c i xt0) x0 x1 x2 := by
  unfold out0_A_6
  rw [View.read_writes_eq_canon _ _ _ (cover0_A_6 c i arg2 harg2 arg3 harg3 arg4 harg4 arg5 harg5 arg6 harg6 arg7 harg7 arg8 harg8 x0 x1 x2 x3 x4 xt0)]
  unfold kernelRun0_A
  dsimp only
  sl_unfold_words
  rw [View.canon_unit_zero hz2]
  simp only [View.readAt_eq_ld, harg2.read_unread, harg3.read_unread, harg4.read_unread, View.ld_unit_zero (S := S1x512x512) hz3, View.ld_unit_zero (S := S1x2048x512) hz3, View.ld_unit_zero (S := S512x512) hz2]
  exact congrArg (fun w => k0_pay6 w x0 x1 x2) (lenWord_read c i xt0 _ _)

theorem out5_eq (c : Dev nD) (i : grid0.Coords) (arg2 : Memref sig .tc .vmem S1x512x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x2048 .f32) (harg8 : arg8.IsWhole) (x0 : Vec F S1x512x512 .f32) (x1 : Vec F S1x2048x512 .f32) (x2 : Vec F S512x512 .bf16) (x3 : Vec F S512x512 .bf16) (x4 : Vec F S512x512 .bf16) (xt0 : TbBuf0 (F := F) c tbM0_0) :
    out0_A_5 c i arg2 harg2 arg3 harg3 arg4 harg4 arg5 harg5 arg6 harg6 arg7 harg7 arg8 harg8 x0 x1 x2 x3 x4 xt0 = k0_pay1 (k0_pay2 x0) (k0_pay4 x3) (k0_pay5 x4) (k0_pay7 (lenWord c i xt0) x0 x1 x2) := by
  unfold out0_A_5
  rw [View.read_writes_eq_canon _ _ _ (cover0_A_5 c i arg2 harg2 arg3 harg3 arg4 harg4 arg5 harg5 arg6 harg6 arg7 harg7 arg8 harg8 x0 x1 x2 x3 x4 xt0)]
  unfold kernelRun0_A
  dsimp only
  sl_unfold_words
  rw [View.canon_unit_zero hz2]
  simp only [View.readAt_eq_ld, harg2.read_unread, harg3.read_unread, harg4.read_unread, harg5.read_unread, harg6.read_unread, View.ld_unit_zero (S := S1x512x512) hz3, View.ld_unit_zero (S := S1x2048x512) hz3, View.ld_unit_zero (S := S512x512) hz2]
  exact congrArg (fun w => k0_pay1 (k0_pay2 x0) (k0_pay4 x3) (k0_pay5 x4) (k0_pay7 w x0 x1 x2)) (lenWord_read c i xt0 _ _)

end Pieces

section Values

variable (m : (ℓ : Loc nD τ sig) → Buf (Elt Ideal) ℓ) (ρ : Dev nD → PrngReg) (hO : Ok m)

/-- The argument arrays as the program is launched with them. -/
abbrev A0 (c : Dev nD) : S32x512x512.Idx → EReal := m ((c : Thread nD τ).loc main_arg0)
abbrev A1 (c : Dev nD) : S32x2048x512.Idx → EReal := m ((c : Thread nD τ).loc main_arg1)
abbrev A2 (c : Dev nD) : S32.Idx → BitVec 32 := m ((c : Thread nD τ).loc main_arg2)
abbrev A3 (c : Dev nD) : S512x512.Idx → EReal := m ((c : Thread nD τ).loc main_arg3)
abbrev A4 (c : Dev nD) : S512x1024.Idx → EReal := m ((c : Thread nD τ).loc main_arg4)

/-- The grid has one axis of 32 points: point t works on batch element t. -/
theorem N_eq : (cfgM m hO).N = 32 := N_0
abbrev bt (t : Fin (cfgM m hO).N) : Fin 32 := ⟨t.val, by have := N_eq m hO; have := t.isLt; omega⟩

/-- The printed index maps over the grid, decided once. -/
theorem idx0 : ∀ t : Fin grid0.N, cc0_transform_0 (grid0.coords t) 0 = t.val ∧ cc0_transform_0 (grid0.coords t) 1 = 0 ∧ cc0_transform_0 (grid0.coords t) 2 = 0 := by decide +kernel
theorem idx1 : ∀ t : Fin grid0.N, cc0_transform_1 (grid0.coords t) 0 = t.val ∧ cc0_transform_1 (grid0.coords t) 1 = 0 ∧ cc0_transform_1 (grid0.coords t) 2 = 0 := by decide +kernel
theorem idx2 : ∀ t : Fin grid0.N, cc0_transform_2 (grid0.coords t) 0 = 0 ∧ cc0_transform_2 (grid0.coords t) 1 = 0 := by decide +kernel
theorem idx3 : ∀ t : Fin grid0.N, cc0_transform_3 (grid0.coords t) 0 = 0 ∧ cc0_transform_3 (grid0.coords t) 1 = 0 := by decide +kernel
theorem idx4 : ∀ t : Fin grid0.N, cc0_transform_4 (grid0.coords t) 0 = 0 ∧ cc0_transform_4 (grid0.coords t) 1 = 0 := by decide +kernel
theorem idx5 : ∀ t : Fin grid0.N, cc0_transform_5 (grid0.coords t) 0 = 0 ∧ cc0_transform_5 (grid0.coords t) 1 = t.val := by decide +kernel
theorem idx6 : ∀ t : Fin grid0.N, cc0_transform_6 (grid0.coords t) 0 = 0 ∧ cc0_transform_6 (grid0.coords t) 1 = t.val := by decide +kernel
theorem coord0 : ∀ t : Fin grid0.N, (grid0.coords t 0).val = t.val := by decide +kernel

/-- The blocks the body is handed at point t, at their literal types. -/
abbrev blk0 (c : Dev nD) (t : Fin (cfgM m hO).N) : Vec Ideal S1x512x512 .f32 := iblk m hO c 0 t
abbrev blk1 (c : Dev nD) (t : Fin (cfgM m hO).N) : Vec Ideal S1x2048x512 .f32 := iblk m hO c 1 t
abbrev blk2 (c : Dev nD) (t : Fin (cfgM m hO).N) : Vec Ideal S512x512 .bf16 := iblk m hO c 2 t
abbrev blk3 (c : Dev nD) (t : Fin (cfgM m hO).N) : Vec Ideal S512x512 .bf16 := iblk m hO c 3 t
abbrev blk4 (c : Dev nD) (t : Fin (cfgM m hO).N) : Vec Ideal S512x512 .bf16 := iblk m hO c 4 t
/-- The length word at point t. -/
abbrev wordAt (c : Dev nD) (t : Fin (cfgM m hO).N) : Elt Ideal .i32 := lenWord (F := Ideal) c (grid0.coords t) (tbl m 0)

theorem blk0_apply (c : Dev nD) (t : Fin (cfgM m hO).N) (j : S1x512x512.Idx) :
    blk0 m hO c t j = A0 m c (ix3 (bt m hO t) (j 1) (j 2)) := by
  show V m c main_arg0 ((((cfgM m hO).win 0).blk t).view.emb j) = _
  refine (congrFun (V_main_arg0 m c) _).trans ?_
  refine congrArg _ (funext fun a => Fin.ext ?_)
  have hj : (j 0).val < 1 := (j 0).isLt
  obtain ⟨e0, e1, e2⟩ := idx0 t
  match a with
  | ⟨0, _⟩ => show cc0_transform_0 (grid0.coords t) (0 : Fin 3) * 1 + 1 * (j 0).val = t.val; omega
  | ⟨1, _⟩ => show cc0_transform_0 (grid0.coords t) (1 : Fin 3) * 512 + 1 * (j 1).val = (j 1).val; omega
  | ⟨2, _⟩ => show cc0_transform_0 (grid0.coords t) (2 : Fin 3) * 512 + 1 * (j 2).val = (j 2).val; omega

theorem blk1_apply (c : Dev nD) (t : Fin (cfgM m hO).N) (j : S1x2048x512.Idx) :
    blk1 m hO c t j = A1 m c (ix3 (bt m hO t) (j 1) (j 2)) := by
  show V m c main_arg1 ((((cfgM m hO).win 1).blk t).view.emb j) = _
  refine (congrFun (V_main_arg1 m c) _).trans ?_
  refine congrArg _ (funext fun a => Fin.ext ?_)
  have hj : (j 0).val < 1 := (j 0).isLt
  obtain ⟨e0, e1, e2⟩ := idx1 t
  match a with
  | ⟨0, _⟩ => show cc0_transform_1 (grid0.coords t) (0 : Fin 3) * 1 + 1 * (j 0).val = t.val; omega
  | ⟨1, _⟩ => show cc0_transform_1 (grid0.coords t) (1 : Fin 3) * 2048 + 1 * (j 1).val = (j 1).val; omega
  | ⟨2, _⟩ => show cc0_transform_1 (grid0.coords t) (2 : Fin 3) * 512 + 1 * (j 2).val = (j 2).val; omega

/-- A weight window's one block is its whole array. -/
theorem emb2 (t : Fin (cfgM m hO).N) (j : S512x512.Idx) : (((cfgM m hO).win 2).blk t).view.emb j = ix2 (j 0) (j 1) := by
  funext a; apply Fin.ext
  obtain ⟨e0, e1⟩ := idx2 t
  match a with
  | ⟨0, _⟩ => show cc0_transform_2 (grid0.coords t) (0 : Fin 2) * 512 + 1 * (j 0).val = (j 0).val; omega
  | ⟨1, _⟩ => show cc0_transform_2 (grid0.coords t) (1 : Fin 2) * 512 + 1 * (j 1).val = (j 1).val; omega
theorem emb3 (t : Fin (cfgM m hO).N) (j : S512x512.Idx) : (((cfgM m hO).win 3).blk t).view.emb j = ix2 (j 0) (j 1) := by
  funext a; apply Fin.ext
  obtain ⟨e0, e1⟩ := idx3 t
  match a with
  | ⟨0, _⟩ => show cc0_transform_3 (grid0.coords t) (0 : Fin 2) * 512 + 1 * (j 0).val = (j 0).val; omega
  | ⟨1, _⟩ => show cc0_transform_3 (grid0.coords t) (1 : Fin 2) * 512 + 1 * (j 1).val = (j 1).val; omega
theorem emb4 (t : Fin (cfgM m hO).N) (j : S512x512.Idx) : (((cfgM m hO).win 4).blk t).view.emb j = ix2 (j 0) (j 1) := by
  funext a; apply Fin.ext
  obtain ⟨e0, e1⟩ := idx4 t
  match a with
  | ⟨0, _⟩ => show cc0_transform_4 (grid0.coords t) (0 : Fin 2) * 512 + 1 * (j 0).val = (j 0).val; omega
  | ⟨1, _⟩ => show cc0_transform_4 (grid0.coords t) (1 : Fin 2) * 512 + 1 * (j 1).val = (j 1).val; omega

/-- The three weight blocks: the transposed input projection and the two transposed halves of the output projection. -/
theorem blk2_apply (c : Dev nD) (t : Fin (cfgM m hO).N) (j : S512x512.Idx) :
    blk2 m hO c t j = A3 m c (ix2 (j 1) (j 0)) := by
  show (V m c main_v1 : S512x512.Idx → EReal) ((((cfgM m hO).win 2).blk t).view.emb j) = _
  refine (congrArg (fun i => (V m c main_v1 : S512x512.Idx → EReal) i) (emb2 m hO t j)).trans ?_
  exact HostVals.V_main_v1_apply m c (j 0) (j 1)
theorem blk3_apply (c : Dev nD) (t : Fin (cfgM m hO).N) (j : S512x512.Idx) :
    blk3 m hO c t j = Attn.woutLo (A4 m c) (j 1) (j 0) := by
  show (V m c main_v4 : S512x512.Idx → EReal) ((((cfgM m hO).win 3).blk t).view.emb j) = _
  refine (congrArg (fun i => (V m c main_v4 : S512x512.Idx → EReal) i) (emb3 m hO t j)).trans ?_
  exact HostVals.V_main_v4_apply m c (j 0) (j 1)
theorem blk4_apply (c : Dev nD) (t : Fin (cfgM m hO).N) (j : S512x512.Idx) :
    blk4 m hO c t j = Attn.woutHi (A4 m c) (j 1) (j 0) := by
  show (V m c main_v7 : S512x512.Idx → EReal) ((((cfgM m hO).win 4).blk t).view.emb j) = _
  refine (congrArg (fun i => (V m c main_v7 : S512x512.Idx → EReal) i) (emb4 m hO t j)).trans ?_
  exact HostVals.V_main_v7_apply m c (j 0) (j 1)

/-- The length word at point t is the length of batch element t. -/
theorem word_eq (c : Dev nD) (t : Fin (cfgM m hO).N) : wordAt m hO c t = A2 m c (ix1 (bt m hO t)) := by
  obtain rfl : c = 0 := Subsingleton.elim _ _
  show V m 0 main_arg2 _ = _
  refine (congrFun (V_main_arg2 m 0) _).trans ?_
  refine congrArg _ (funext fun a => Fin.ext ?_)
  match a with
  | ⟨0, _⟩ => exact coord0 t

/-- What the body leaves in the two outputs' staging buffers at point t. -/
theorem outs6_eq (c : Dev nD) (t : Fin (cfgM m hO).N) :
    ((outsAt0 m hO c t).2 : Vec Ideal S512x2048 .f32) = k0_pay6 (wordAt m hO c t) (blk0 m hO c t) (blk1 m hO c t) (blk2 m hO c t) := by
  unfold outsAt0
  dsimp only
  exact out6_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (tbl m 0)
theorem outs5_eq (c : Dev nD) (t : Fin (cfgM m hO).N) :
    ((outsAt0 m hO c t).1 : Vec Ideal S512x512 .f32) = k0_pay1 (k0_pay2 (blk0 m hO c t)) (k0_pay4 (blk3 m hO c t)) (k0_pay5 (blk4 m hO c t)) (k0_pay7 (wordAt m hO c t) (blk0 m hO c t) (blk1 m hO c t) (blk2 m hO c t)) := by
  unfold outsAt0
  dsimp only
  exact out5_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (tbl m 0)

/-- The blocks are the slices the specification is stated over. -/
theorem dec_eq (c : Dev nD) (t : Fin (cfgM m hO).N) : Pay.decRows (blk0 m hO c t) = Attn.decAt (A0 m c) (bt m hO t) :=
  funext fun p => funext fun h => blk0_apply m hO c t (ix3 (0 : Fin 1) p h)
theorem enc_eq (c : Dev nD) (t : Fin (cfgM m hO).N) : Pay.encRows (blk1 m hO c t) = Attn.encAt (A1 m c) (bt m hO t) :=
  funext fun s => funext fun h => blk1_apply m hO c t (ix3 (0 : Fin 1) s h)
theorem win_eq (c : Dev nD) (t : Fin (cfgM m hO).N) : Pay.colsOf (blk2 m hO c t) = Attn.winAt (A3 m c) :=
  funext fun o => funext fun h => blk2_apply m hO c t (ix2 h o)
theorem wlo_eq (c : Dev nD) (t : Fin (cfgM m hO).N) : Pay.colsOf (blk3 m hO c t) = Attn.woutLo (A4 m c) :=
  funext fun o => funext fun k => blk3_apply m hO c t (ix2 k o)
theorem whi_eq (c : Dev nD) (t : Fin (cfgM m hO).N) : Pay.colsOf (blk4 m hO c t) = Attn.woutHi (A4 m c) :=
  funext fun o => funext fun k => blk4_apply m hO c t (ix2 k o)

/-- The attention weights block of point t, at (p, q), is the weights array at (p, t, q). -/
theorem block6_value (c : Dev nD) (t : Fin (cfgM m hO).N) (y : S512x2048.Idx) :
    k0_pay6 (F := Ideal) (wordAt m hO c t) (blk0 m hO c t) (blk1 m hO c t) (blk2 m hO c t) y
      = Attn.alignMul (A0 m c) (A1 m c) (A2 m c) (A3 m c) (ix3 (y 0) (bt m hO t) (y 1)) := by
  obtain ⟨p, q, rfl⟩ : ∃ (p : Fin 512) (q : Fin 2048), y = ix2 p q := ⟨y 0, y 1, eq_ix2 y⟩
  refine (Pay.pay6_apply _ _ _ _ p q).trans ?_
  show Attn.weightsMul _ _ _ _ p q = Attn.weightsMul (Attn.decAt (A0 m c) (bt m hO t)) (Attn.encAt (A1 m c) (bt m hO t)) (Attn.winAt (A3 m c)) (Attn.lenAt (A2 m c) (bt m hO t)) p q
  rw [dec_eq, enc_eq, win_eq, word_eq]
  rfl

/-- The output block of point t, at (p, q), is the output array at (p, t, q). -/
theorem block5_value (c : Dev nD) (t : Fin (cfgM m hO).N) (y : S512x512.Idx) :
    k0_pay1 (F := Ideal) (k0_pay2 (blk0 m hO c t)) (k0_pay4 (blk3 m hO c t)) (k0_pay5 (blk4 m hO c t)) (k0_pay7 (wordAt m hO c t) (blk0 m hO c t) (blk1 m hO c t) (blk2 m hO c t)) y
      = Attn.hiddenMul (A0 m c) (A1 m c) (A2 m c) (A3 m c) (A4 m c) (ix3 (y 0) (bt m hO t) (y 1)) := by
  obtain ⟨p, q, rfl⟩ : ∃ (p : Fin 512) (q : Fin 512), y = ix2 p q := ⟨y 0, y 1, eq_ix2 y⟩
  refine (Pay.pay1_apply _ _ _ _ _ _ p q).trans ?_
  show Attn.hiddenSplit _ _ _ _ (Attn.weightsMul _ _ _ _) p q = Attn.hiddenSplit (Attn.decAt (A0 m c) (bt m hO t)) (Attn.encAt (A1 m c) (bt m hO t)) (Attn.woutLo (A4 m c)) (Attn.woutHi (A4 m c)) (Attn.weightsMul (Attn.decAt (A0 m c) (bt m hO t)) (Attn.encAt (A1 m c) (bt m hO t)) (Attn.winAt (A3 m c)) (Attn.lenAt (A2 m c) (bt m hO t))) p q
  rw [dec_eq, enc_eq, win_eq, wlo_eq, whi_eq, word_eq]
  rfl

/-! ### The two flat output arrays -/

theorem cast5 : S512x32x512.ShapeCasts S512x16384 := by decide
theorem cast6 : S512x32x2048.ShapeCasts S512x65536 := by decide

/-- The output array laid out flat: row t', column b * 512 + o. -/
def flat5 (c : Dev nD) : S512x16384.Idx → EReal := shapeCast S512x16384 (Attn.hiddenMul (A0 m c) (A1 m c) (A2 m c) (A3 m c) (A4 m c)) cast5
/-- The weights array laid out flat: row t', column b * 2048 + s. -/
def flat6 (c : Dev nD) : S512x65536.Idx → EReal := shapeCast S512x65536 (Attn.alignMul (A0 m c) (A1 m c) (A2 m c) (A3 m c)) cast6

theorem flat5_apply (c : Dev nD) (p : Fin 512) (b : Fin 32) (q : Fin 512) (i : S512x16384.Idx) (h0 : (i 0).val = p.val) (h1 : (i 1).val = b.val * 512 + q.val) :
    flat5 m c i = Attn.hiddenMul (A0 m c) (A1 m c) (A2 m c) (A3 m c) (A4 m c) (ix3 p b q) :=
  shapeCast_apply _ cast5 i (ix3 p b q) (by
    rw [Shape.rowMajor_val_three, Shape.rowMajor_val_two]
    show (p.val * 32 + b.val) * 512 + q.val = (i 0).val * 16384 + (i 1).val
    omega)
theorem flat6_apply (c : Dev nD) (p : Fin 512) (b : Fin 32) (q : Fin 2048) (i : S512x65536.Idx) (h0 : (i 0).val = p.val) (h1 : (i 1).val = b.val * 2048 + q.val) :
    flat6 m c i = Attn.alignMul (A0 m c) (A1 m c) (A2 m c) (A3 m c) (ix3 p b q) :=
  shapeCast_apply _ cast6 i (ix3 p b q) (by
    rw [Shape.rowMajor_val_three, Shape.rowMajor_val_two]
    show (p.val * 32 + b.val) * 2048 + q.val = (i 0).val * 65536 + (i 1).val
    omega)

/-- What point t writes back, read at a block index, is the flat array at that index's place in the array. -/
theorem blockread6 (c : Dev nD) (t : Fin (cfgM m hO).N) (y : S512x2048.Idx) :
    k0_pay6 (F := Ideal) (wordAt m hO c t) (blk0 m hO c t) (blk1 m hO c t) (blk2 m hO c t) y
      = flat6 m c ((((cfgM m hO).win 6).blk t).view.emb y) := by
  refine (block6_value m hO c t y).trans ?_
  symm
  obtain ⟨e0, e1⟩ := idx6 t
  refine flat6_apply m c (y 0) (bt m hO t) (y 1) _ ?_ ?_
  · show cc0_transform_6 (grid0.coords t) (0 : Fin 2) * 512 + 1 * (y 0).val = (y 0).val; omega
  · show cc0_transform_6 (grid0.coords t) (1 : Fin 2) * 2048 + 1 * (y 1).val = t.val * 2048 + (y 1).val; omega
theorem blockread5 (c : Dev nD) (t : Fin (cfgM m hO).N) (y : S512x512.Idx) :
    k0_pay1 (F := Ideal) (k0_pay2 (blk0 m hO c t)) (k0_pay4 (blk3 m hO c t)) (k0_pay5 (blk4 m hO c t)) (k0_pay7 (wordAt m hO c t) (blk0 m hO c t) (blk1 m hO c t) (blk2 m hO c t)) y
      = flat5 m c ((((cfgM m hO).win 5).blk t).view.emb y) := by
  refine (block5_value m hO c t y).trans ?_
  symm
  obtain ⟨e0, e1⟩ := idx5 t
  refine flat5_apply m c (y 0) (bt m hO t) (y 1) _ ?_ ?_
  · show cc0_transform_5 (grid0.coords t) (0 : Fin 2) * 512 + 1 * (y 0).val = (y 0).val; omega
  · show cc0_transform_5 (grid0.coords t) (1 : Fin 2) * 512 + 1 * (y 1).val = t.val * 512 + (y 1).val; omega

/-- What point t writes back is block t of the flat array. -/
theorem flushed6_eq (c : Dev nD) (t : Fin (cfgM m hO).N) :
    (dats m hO 0 c).flushed 6 t = (((cfgM m hO).win 6).blk t).view.read (Elt Ideal) (flat6 m c) := by
  show ((cfgM m hO).win 6).cut ((cfgM m hO).grid.coords t) ((dats m hO 0 c).after 6 t) = _
  rw [after0_6, outs6_eq]
  funext y
  exact blockread6 m hO c t y
theorem flushed5_eq (c : Dev nD) (t : Fin (cfgM m hO).N) :
    (dats m hO 0 c).flushed 5 t = (((cfgM m hO).win 5).blk t).view.read (Elt Ideal) (flat5 m c) := by
  show ((cfgM m hO).win 5).cut ((cfgM m hO).grid.coords t) ((dats m hO 0 c).after 5 t) = _
  rw [after0_5, outs5_eq]
  funext y
  exact blockread5 m hO c t y

/-- Every column of a flat array lies in the block of the batch element it belongs to: column j of the weights array
    is column j mod 2048 of the block of batch element j / 2048. -/
theorem cover6 (i : S512x65536.Idx) : ∃ t : Fin (cfgM m hO).N, ((cfgM m hO).win 6).flush t = true ∧ i ∈ (((cfgM m hO).win 6).blk t).view.set := by
  have hi1 : (i 1).val < 65536 := (i 1).isLt
  have hN := N_eq m hO
  obtain ⟨t, ht⟩ : ∃ t : Fin (cfgM m hO).N, t.val = (i 1).val / 2048 := ⟨⟨(i 1).val / 2048, by omega⟩, rfl⟩
  have he : (((cfgM m hO).win 6).blk t).view.emb (ix2 (i 0) (⟨(i 1).val % 2048, Nat.mod_lt _ (by decide)⟩ : Fin 2048) : S512x2048.Idx) = i := by
    funext a; apply Fin.ext
    obtain ⟨e0, e1⟩ := idx6 t
    match a with
    | ⟨0, _⟩ => show cc0_transform_6 (grid0.coords t) (0 : Fin 2) * 512 + 1 * (i 0).val = (i 0).val; omega
    | ⟨1, _⟩ => show cc0_transform_6 (grid0.coords t) (1 : Fin 2) * 2048 + 1 * ((i 1).val % 2048) = (i 1).val; omega
  refine ⟨t, flush0_6 (adm m hO) t, ?_⟩
  rw [← he]
  exact View.emb_mem_set _ _
theorem cover5 (i : S512x16384.Idx) : ∃ t : Fin (cfgM m hO).N, ((cfgM m hO).win 5).flush t = true ∧ i ∈ (((cfgM m hO).win 5).blk t).view.set := by
  have hi1 : (i 1).val < 16384 := (i 1).isLt
  have hN := N_eq m hO
  obtain ⟨t, ht⟩ : ∃ t : Fin (cfgM m hO).N, t.val = (i 1).val / 512 := ⟨⟨(i 1).val / 512, by omega⟩, rfl⟩
  have he : (((cfgM m hO).win 5).blk t).view.emb (ix2 (i 0) (⟨(i 1).val % 512, Nat.mod_lt _ (by decide)⟩ : Fin 512) : S512x512.Idx) = i := by
    funext a; apply Fin.ext
    obtain ⟨e0, e1⟩ := idx5 t
    match a with
    | ⟨0, _⟩ => show cc0_transform_5 (grid0.coords t) (0 : Fin 2) * 512 + 1 * (i 0).val = (i 0).val; omega
    | ⟨1, _⟩ => show cc0_transform_5 (grid0.coords t) (1 : Fin 2) * 512 + 1 * ((i 1).val % 512) = (i 1).val; omega
  refine ⟨t, flush0_5 (adm m hO) t, ?_⟩
  rw [← he]
  exact View.emb_mem_set _ _

/-- The two output arrays after the region. -/
theorem final6 (c : Dev nD) : (dats m hO 0 c).arrAt 6 (cfgM m hO).N = flat6 m c :=
  (dats m hO 0 c).arrAt_eq_of_cover 6 (flat6 m c) (fun t _ => flushed6_eq m hO c t) (cover6 m hO)
theorem final5 (c : Dev nD) : (dats m hO 0 c).arrAt 5 (cfgM m hO).N = flat5 m c :=
  (dats m hO 0 c).arrAt_eq_of_cover 5 (flat5 m c) (fun t _ => flushed5_eq m hO c t) (cover5 m hO)

/-- The host lines after the region cast each flat array to (target row, batch element, column): the results. -/
theorem tail_v10 (c : Dev nD) :
    Pipeline.afterTail pcfgs (fun _ => adm m hO) (dats m hO) 0 (V0 m) [hostOps1] c main_v10 = Attn.alignMul (A0 m c) (A1 m c) (A2 m c) (A3 m c) := by
  unfold Pipeline.afterTail
  show StableHlo.after hostOps1 _ (Proc.devRef .tc main_v10) = _
  after_results
  funext i
  show shapeCast S512x32x2048 (Pipeline.withArrays (Pipeline.pin pcfgs (fun _ => adm m hO) 0).spec c (V0 m c) (fun w => (dats m hO 0 c).arrAt w (Pipeline.pin pcfgs (fun _ => adm m hO) 0).N) (Proc.devRef .tc main_v8_1)) _ i = _
  refine (congrFun (congrArg (fun X => shapeCast S512x32x2048 X _) ((Pipeline.withArrays_arr spec0 winFacts0.arr_inj c _ _ 6).trans (final6 m hO c))) i).trans ?_
  exact congrFun (shapeCast_shapeCast _ (cast6) _) i
theorem tail_v9 (c : Dev nD) :
    Pipeline.afterTail pcfgs (fun _ => adm m hO) (dats m hO) 0 (V0 m) [hostOps1] c main_v9 = Attn.hiddenMul (A0 m c) (A1 m c) (A2 m c) (A3 m c) (A4 m c) := by
  unfold Pipeline.afterTail
  show StableHlo.after hostOps1 _ (Proc.devRef .tc main_v9) = _
  after_results
  funext i
  show shapeCast S512x32x512 (Pipeline.withArrays (Pipeline.pin pcfgs (fun _ => adm m hO) 0).spec c (V0 m c) (fun w => (dats m hO 0 c).arrAt w (Pipeline.pin pcfgs (fun _ => adm m hO) 0).N) (Proc.devRef .tc main_v8_0)) _ i = _
  refine (congrFun (congrArg (fun X => shapeCast S512x32x512 X _) ((Pipeline.withArrays_arr spec0 winFacts0.arr_inj c _ _ 5).trans (final5 m hO c))) i).trans ?_
  exact congrFun (shapeCast_shapeCast _ (cast5) _) i

include hO in
/-- The kernel's run, read: both results at the attention results in the product spelling, the arguments unchanged. -/
theorem run : θ_run defs (onTc (τ := τ) (main (F := Ideal))) ⟨m, fun _ => 0, ρ⟩ (fun r => ∀ c : Dev nD,
      r.2.mem ((c.tc : Thread nD τ).loc main_v9) = Attn.hiddenMul (A0 m c) (A1 m c) (A2 m c) (A3 m c) (A4 m c)
      ∧ r.2.mem ((c.tc : Thread nD τ).loc main_v10) = Attn.alignMul (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v9 (by decide : main_v9 ∈ Pipeline.restRefs sig spec0)).trans (tail_v9 m hO c),
      ((h c).2 main_v10 (by decide : main_v10 ∈ Pipeline.restRefs sig spec0)).trans (tail_v10 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c)⟩)
    (run_main m ρ hO)

end Values

end Cert.KernelIdeal.Value

end
-- ==== Proof.RefValue.lean ====
/-
  The reference's two results are the attention results in the quotient spelling, index by index.
-/
import proofs.«405795_j15736760172825_3_alg».proof.Proof.RefRead
import proofs.«405795_j15736760172825_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.ReadP

variable [Cert.ReferenceIdeal.Facts]

/-- The projected query at coordinates. -/
private theorem v0_at (x0 : (⟨S32x512x512, .f32⟩ : BufTy).Contents (Elt Ideal)) (x3 : (⟨S512x512, .f32⟩ : BufTy).Contents (Elt Ideal))
    (b : Fin 32) (t o : Fin 512) :
    val_main_v0 (F := Ideal) x0 x3 (ix3 b t o) = Attn.query (Attn.decAt x0 b) (Attn.winAt x3) t o := by
  rw [val_main_v0_apply]
  unfold Attn.query Attn.decAt Attn.winAt
  refine Finset.sum_congr rfl fun k _ => ?_
  have e1 : lidx_main_v0 (ix3 b t o) k = ix3 b t k :=
    funext fun a => Fin.ext (by match a with | ⟨0, _⟩ => rfl | ⟨1, _⟩ => rfl | ⟨2, _⟩ => rfl)
  have e2 : ridx_main_v0 (ix3 b t o) k = ix2 o k :=
    funext fun a => Fin.ext (by match a with | ⟨0, _⟩ => rfl | ⟨1, _⟩ => rfl)
  rw [e1, e2]

/-- The score at coordinates. -/
private theorem v1_at (x0 : (⟨S32x512x512, .f32⟩ : BufTy).Contents (Elt Ideal)) (x1 : (⟨S32x2048x512, .f32⟩ : BufTy).Contents (Elt Ideal))
    (x3 : (⟨S512x512, .f32⟩ : BufTy).Contents (Elt Ideal)) (b : Fin 32) (t : Fin 512) (s : Fin 2048) :
    val_main_v1 (F := Ideal) x0 x1 x3 (ix3 b t s) = Attn.score (Attn.decAt x0 b) (Attn.encAt x1 b) (Attn.winAt x3) t s := by
  rw [val_main_v1_apply]
  unfold Attn.score
  refine Finset.sum_congr rfl fun k _ => ?_
  have e1 : lidx_main_v1 (ix3 b t s) k = ix3 b t k :=
    funext fun a => Fin.ext (by match a with | ⟨0, _⟩ => rfl | ⟨1, _⟩ => rfl | ⟨2, _⟩ => rfl)
  have e2 : ridx_main_v1 (ix3 b t s) k = ix3 b s k :=
    funext fun a => Fin.ext (by match a with | ⟨0, _⟩ => rfl | ⟨1, _⟩ => rfl | ⟨2, _⟩ => rfl)
  rw [e1, e2, v0_at]
  rfl

/-- The mask at coordinates. -/
private theorem mask_at (x2 : (⟨S32, .i32⟩ : BufTy).Contents (Elt Ideal)) (b : Fin 32) (t : Fin 512) (s : Fin 2048) :
    val_main_call0_v1 (F := Ideal) x2 (ix3 b t s) = Attn.keep (Attn.lenAt x2 b) s := by
  rw [val_main_call0_v1_apply, val_main_v7_apply, val_main_v5_apply, val_main_v3_apply, val_main_v2_apply,
    val_main_v6_apply, val_main_v4_apply]
  have e1 : idx_main_v4 (idx_main_v6 (idx_main_call0_v1 (ix3 b t s))) = ix1 b :=
    funext fun a => Fin.ext (by match a with | ⟨0, _⟩ => rfl)
  rw [e1]
  rfl

/-- The masked score at coordinates. -/
private theorem v8_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t : Fin 512) (s : Fin 2048) :
    val_main_v8 (F := Ideal) x0 x1 x2 x3 (ix3 b t s)
      = Attn.masked (Attn.decAt x0 b) (Attn.encAt x1 b) (Attn.winAt x3) (Attn.lenAt x2 b) t s := by
  rw [val_main_v8_apply, mask_at, v1_at, val_main_call0_v2_apply, val_main_call0_v0_apply, val_main_cst_apply]
  unfold Attn.masked
  have hb : (FloatOps.ofBits .f32 0xFF800000#32 : Ideal .f32) = (⊥ : EReal) := by
    simp [Ideal.ofBits, Ideal.ieee]
  rw [hb]

/-- The row maximum: the max-reduction over the source axis, folded from minus infinity. -/
private theorem v9_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t : Fin 512) :
    val_main_v9 (F := Ideal) x0 x1 x2 x3 (ix2 b t)
      = Attn.rowMax (Attn.masked (Attn.decAt x0 b) (Attn.encAt x1 b) (Attn.winAt x3) (Attn.lenAt x2 b) t) := by
  unfold val_main_v9
  have hR : S32x512x2048.Reduces [2] S32x512 := by decide
  rw [Host.reduce_eq_fold_single FloatOps.maximumf _ _ Gen.reducesTo_S32x512x2048_S32x512_d2 hR Gen.h_S_ (ix2 b t)]
  have hinit : val_main_cst_0 (F := Ideal) (Shape.Idx.first Gen.h_S_) = (⊥ : EReal) := by
    rw [val_main_cst_0_apply]; simp [Ideal.ofBits, Ideal.ieee]
  have hfun : (val_main_v8 (F := Ideal) x0 x1 x2 x3 ∘ hR.lift (ix2 b t))
      = Attn.masked (Attn.decAt x0 b) (Attn.encAt x1 b) (Attn.winAt x3) (Attn.lenAt x2 b) t := funext fun (s : Fin 2048) => by
    have e : hR.lift (ix2 b t) s = (ix3 b t s : S32x512x2048.Idx) :=
      funext fun a => Fin.ext (by match a with | ⟨0, _⟩ => rfl | ⟨1, _⟩ => rfl | ⟨2, _⟩ => rfl)
    show val_main_v8 (F := Ideal) x0 x1 x2 x3 (hR.lift (ix2 b t) s) = _
    rw [e, v8_at]
  rw [hinit, hfun]
  rfl

/-- The maximum of minus infinity and the row maximum is the row maximum. -/
private theorem v11_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t : Fin 512) :
    val_main_v11 (F := Ideal) x0 x1 x2 x3 (ix2 b t)
      = Attn.rowMax (Attn.masked (Attn.decAt x0 b) (Attn.encAt x1 b) (Attn.winAt x3) (Attn.lenAt x2 b) t) := by
  rw [val_main_v11_apply, v9_at, val_main_v10_apply, val_main_cst_1_apply, Ideal.maximumf_def]
  have hb : (FloatOps.ofBits .f32 0xFF800000#32 : Ideal .f32) = (⊥ : EReal) := by
    simp [Ideal.ofBits, Ideal.ieee]
  rw [hb]
  exact max_eq_right bot_le

/-- The shifted exponential at coordinates. -/
private theorem v15_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t : Fin 512) (s : Fin 2048) :
    val_main_v15 (F := Ideal) x0 x1 x2 x3 (ix3 b t s) = Attn.shifted (Attn.decAt x0 b) (Attn.encAt x1 b) (Attn.winAt x3) (Attn.lenAt x2 b) t s := by
  rw [val_main_v15_apply, val_main_v14_apply, val_main_v13_apply, val_main_v12_apply]
  have e : idx_main_v12 (idx_main_v13 (ix3 b t s)) = ix2 b t :=
    funext fun a => Fin.ext (by match a with | ⟨0, _⟩ => rfl | ⟨1, _⟩ => rfl)
  rw [e, v11_at, v8_at, Ideal.hostUnary_exp_def, Ideal.subf_def]
  rfl

/-- The normaliser at coordinates: the sum from the zero word. -/
private theorem v16_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t : Fin 512) :
    val_main_v16 (F := Ideal) x0 x1 x2 x3 (ix2 b t) = Attn.denom (Attn.decAt x0 b) (Attn.encAt x1 b) (Attn.winAt x3) (Attn.lenAt x2 b) t := by
  rw [val_main_v16_apply, val_main_cst_2_apply]
  have h0 : (FloatOps.ofBits .f32 0x00000000#32 : Ideal .f32) = (0 : EReal) := Ideal.ofBits_zero_f32
  rw [h0, zero_add]
  unfold Attn.denom
  refine Finset.sum_congr rfl fun k _ => ?_
  have e : idx_main_v16 (ix2 b t) k = ix3 b t k :=
    funext fun a => Fin.ext (by match a with | ⟨0, _⟩ => rfl | ⟨1, _⟩ => rfl | ⟨2, _⟩ => rfl)
  rw [e, v15_at]

/-- The attention weights at coordinates, as the quotient. -/
private theorem v19_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t : Fin 512) (s : Fin 2048) :
    val_main_v19 (F := Ideal) x0 x1 x2 x3 (ix3 b t s) = Attn.weights (Attn.decAt x0 b) (Attn.encAt x1 b) (Attn.winAt x3) (Attn.lenAt x2 b) t s := by
  rw [val_main_v19_apply, val_main_v18_apply, val_main_v17_apply]
  have e : idx_main_v17 (idx_main_v18 (ix3 b t s)) = ix2 b t :=
    funext fun a => Fin.ext (by match a with | ⟨0, _⟩ => rfl | ⟨1, _⟩ => rfl)
  rw [e, v16_at, v15_at, Ideal.hostDivf_def]
  rfl

theorem align_eq (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) :
    val_main_v25 (F := Ideal) x0 x1 x2 x3 = Attn.alignDiv x0 x1 x2 x3 := by
  funext i
  obtain ⟨t, b, s, rfl⟩ : ∃ (t : Fin 512) (b : Fin 32) (s : Fin 2048), i = ix3 t b s := ⟨i 0, i 1, i 2, eq_ix3 i⟩
  rw [val_main_v25_apply]
  have e : idx_main_v25 (ix3 t b s) = ix3 b t s :=
    funext fun a => Fin.ext (by match a with | ⟨0, _⟩ => rfl | ⟨1, _⟩ => rfl | ⟨2, _⟩ => rfl)
  rw [e, v19_at]
  rfl

/-- The context row at coordinates. -/
private theorem v20_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t h : Fin 512) :
    val_main_v20 (F := Ideal) x0 x1 x2 x3 (ix3 b t h) = Attn.context (Attn.encAt x1 b) (Attn.weights (Attn.decAt x0 b) (Attn.encAt x1 b) (Attn.winAt x3) (Attn.lenAt x2 b)) t h := by
  rw [val_main_v20_apply]
  unfold Attn.context
  refine Finset.sum_congr rfl fun k _ => ?_
  have e1 : lidx_main_v20 (ix3 b t h) k = ix3 b t k :=
    funext fun a => Fin.ext (by match a with | ⟨0, _⟩ => rfl | ⟨1, _⟩ => rfl | ⟨2, _⟩ => rfl)
  have e2 : ridx_main_v20 (ix3 b t h) k = ix3 b k h :=
    funext fun a => Fin.ext (by match a with | ⟨0, _⟩ => rfl | ⟨1, _⟩ => rfl | ⟨2, _⟩ => rfl)
  rw [e1, e2, v19_at]
  rfl

/-- The joined row at coordinates: the context row in the first 512 columns, the decoder row in the last 512. -/
private theorem v21_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (b : Fin 32) (t : Fin 512) (k : Fin 1024) :
    val_main_v21 (F := Ideal) x0 x1 x2 x3 (ix3 b t k)
      = Attn.joined (Attn.decAt x0 b) (Attn.encAt x1 b) (Attn.weights (Attn.decAt x0 b) (Attn.encAt x1 b) (Attn.winAt x3) (Attn.lenAt x2 b)) t k := by
  unfold val_main_v21 Attn.joined
  by_cases hk : k.val < 512
  · rw [dif_pos hk, ← v20_at]
    exact concatenate_pair_apply_left 2 _ _ Gen.concatenates_S32x512x512_S32x512x512_S32x512x1024_d2 (ix3 b t k) rfl
      (ix3 b t (⟨k.val, hk⟩ : Fin 512))
      (fun a => by match a with | ⟨0, _⟩ => rfl | ⟨1, _⟩ => rfl | ⟨2, _⟩ => rfl)
  · rw [dif_neg hk]
    have hk' : k.val - 512 < 512 := by have := k.isLt; omega
    exact concatenate_pair_apply_right 2 _ _ Gen.concatenates_S32x512x512_S32x512x512_S32x512x1024_d2 (ix3 b t k) rfl rfl
      (ix3 b t (⟨k.val - 512, hk'⟩ : Fin 512))
      (fun a ha => by
        match a with
        | ⟨0, _⟩ => rfl
        | ⟨1, _⟩ => rfl
        | ⟨2, _⟩ => exact absurd rfl ha)
      (by show k.val - 512 + 512 = k.val; omega)

/-- The output projection at coordinates, as one sum over the joined row. -/
private theorem v22_at (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal)) (x4 : (⟨S512x1024, .f32⟩ : BufTy).Contents (Elt Ideal)) (b : Fin 32) (t o : Fin 512) :
    val_main_v22 (F := Ideal) x0 x1 x2 x3 x4 (ix3 b t o)
      = ∑ k : Fin 1024, Attn.joined (Attn.decAt x0 b) (Attn.encAt x1 b) (Attn.weights (Attn.decAt x0 b) (Attn.encAt x1 b) (Attn.winAt x3) (Attn.lenAt x2 b)) t k * Attn.woutAt x4 o k := by
  rw [val_main_v22_apply]
  refine Finset.sum_congr rfl fun k _ => ?_
  have e1 : lidx_main_v22 (ix3 b t o) k = ix3 b t k :=
    funext fun a => Fin.ext (by match a with | ⟨0, _⟩ => rfl | ⟨1, _⟩ => rfl | ⟨2, _⟩ => rfl)
  have e2 : ridx_main_v22 (ix3 b t o) k = ix2 o k :=
    funext fun a => Fin.ext (by match a with | ⟨0, _⟩ => rfl | ⟨1, _⟩ => rfl)
  rw [e1, e2, v21_at]
  rfl

theorem hidden_eq (x0 : (⟨S32x512x512, .f32⟩ : BufTy).Contents (Elt Ideal)) (x1 : (⟨S32x2048x512, .f32⟩ : BufTy).Contents (Elt Ideal))
    (x2 : (⟨S32, .i32⟩ : BufTy).Contents (Elt Ideal)) (x3 : (⟨S512x512, .f32⟩ : BufTy).Contents (Elt Ideal))
    (x4 : (⟨S512x1024, .f32⟩ : BufTy).Contents (Elt Ideal)) :
    val_main_v24 (F := Ideal) x0 x1 x2 x3 x4 = Attn.hiddenDiv x0 x1 x2 x3 x4 := by
  funext i
  obtain ⟨t, b, o, rfl⟩ : ∃ (t : Fin 512) (b : Fin 32) (o : Fin 512), i = ix3 t b o := ⟨i 0, i 1, i 2, eq_ix3 i⟩
  rw [val_main_v24_apply, val_main_v23_apply]
  have e : idx_main_v24 (ix3 t b o) = ix3 b t o :=
    funext fun a => Fin.ext (by match a with | ⟨0, _⟩ => rfl | ⟨1, _⟩ => rfl | ⟨2, _⟩ => rfl)
  rw [e, v22_at, Ideal.hostUnary_tanh_def]
  rfl

end Cert.ReferenceIdeal.RefValue

end
-- ==== Proof.lean ====
/-
  The certificate's assembly.

  The kernel computes, per batch element, the global attention of a decoder block over an encoder block: scores masked
  beyond the length, a softmax along the source axis written as exp (x - max) * (1 / sum), the context row, and the tanh
  of the output projection split in its context half and its decoder half; it writes both results already laid out
  (target row, batch, column). The reference computes the same with the softmax's quotient exp (x - max) / sum and one
  projection of the joined row, and transposes at the end. On the extended reals the two agree wherever the softmax's
  normaliser is not zero: for finite arguments and lengths of at least one the normaliser is at least the term of source
  position 0, which is positive. The frames are the generated ones (the pallas_call's index maps read no table, so the
  table's side condition is trivially true), the reference's frame is its run with the results dropped, and the one
  ledger entry is the masking fill named as minus infinity.
-/
import proofs.«405795_j15736760172825_3_alg».proof.Defs
import proofs.«405795_j15736760172825_3_alg».proof.Proof.Gen.Kernel
import proofs.«405795_j15736760172825_3_alg».proof.Proof.Gen.Kernel.Skeleton
import proofs.«405795_j15736760172825_3_alg».proof.Proof.Gen.Kernel.Launch
import proofs.«405795_j15736760172825_3_alg».proof.Proof.Gen.Kernel.Points
import proofs.«405795_j15736760172825_3_alg».proof.Proof.Gen.Kernel.Frame
import proofs.«405795_j15736760172825_3_alg».proof.Proof.Gen.KernelIdeal
import proofs.«405795_j15736760172825_3_alg».proof.Proof.Gen.KernelIdeal.Skeleton
import proofs.«405795_j15736760172825_3_alg».proof.Proof.Gen.KernelIdeal.Launch
import proofs.«405795_j15736760172825_3_alg».proof.Proof.Gen.KernelIdeal.Points
import proofs.«405795_j15736760172825_3_alg».proof.Proof.Gen.KernelIdeal.Frame
import proofs.«405795_j15736760172825_3_alg».proof.Proof.Gen.ReferenceIdeal
import proofs.«405795_j15736760172825_3_alg».proof.Proof.Gen.Pre_finite_inputs
import proofs.«405795_j15736760172825_3_alg».proof.Proof.RefRun
import proofs.«405795_j15736760172825_3_alg».proof.Proof.RefRead
import proofs.«405795_j15736760172825_3_alg».proof.Proof.Spec
import proofs.«405795_j15736760172825_3_alg».proof.Proof.Law
import proofs.«405795_j15736760172825_3_alg».proof.Proof.PreFacts
import proofs.«405795_j15736760172825_3_alg».proof.Proof.KernelValue
import proofs.«405795_j15736760172825_3_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- No index map of the pallas_call reads the length table, so its side condition on the table is the true proposition. -/
theorem ok_kernel (m : (ℓ : Loc Cert.Kernel.nD Cert.Kernel.τ Cert.Kernel.sig) → Buf (Elt Bits) ℓ) : Cert.Kernel.Gen.Ok m := by
  show True; trivial
theorem ok_kernelIdeal (m : (ℓ : Loc Cert.KernelIdeal.nD Cert.KernelIdeal.τ Cert.KernelIdeal.sig) → Buf (Elt Ideal) ℓ) : Cert.KernelIdeal.Gen.Ok m := by
  show True; trivial

theorem frame_k : Cert.frame_Kernel := fun m ρ _ => Cert.Kernel.Gen.frame m ρ (ok_kernel m)
theorem frame_ki : Cert.frame_KernelIdeal := fun m ρ _ => Cert.KernelIdeal.Gen.frame m ρ (ok_kernelIdeal m)
/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ledger's one entry: the masking fill is named minus infinity, and the printed constant is that value at the exact instance. -/
theorem preserves : Cert.preserves_Kernel_KernelIdeal :=
  IdealRules.named_const.statement Cert.KernelIdeal.κ "neg_big" .f32 0xFF333332#32 ⊥ rfl

/-- Both programs end with the attention results: the kernel in the product spelling with the split projection, the
    reference in the quotient spelling with the joined projection; on finite arguments with lengths of at least one the
    two spellings are one function. -/
theorem algebraic : Cert.algebraic_KernelIdeal_ReferenceIdeal := by
  intro m ρ m' ρ' hpre hagree
  refine ⟨_, _, Cert.KernelIdeal.Value.run m ρ (ok_kernelIdeal m), ?_⟩
  refine (θ_run Cert.ReferenceIdeal.defs _ _).mono (fun _ h c => ?_) (Cert.ReferenceIdeal.ValueP.run (F := Ideal) m' ρ')
  obtain ⟨hf0, hf1, hf3, hL⟩ := Cert.Attn.domain_of_pre _ _ _ _ _ (hpre c)
  refine ⟨(h c).1.trans ?_, (h c).2.1.trans ?_, (h c).2.2⟩
  · rw [Cert.ReferenceIdeal.ReadP.val_main_v24_eq, Cert.ReferenceIdeal.RefValue.hidden_eq,
      (hagree c).1, (hagree c).2.1, (hagree c).2.2.1, (hagree c).2.2.2.1, (hagree c).2.2.2.2]
    exact (Cert.Attn.hiddenMul_eq_hiddenDiv _ _ _ _ _ hf0 hf1 hf3 hL).symm
  · rw [Cert.ReferenceIdeal.ReadP.val_main_v25_eq, Cert.ReferenceIdeal.RefValue.align_eq,
      (hagree c).1, (hagree c).2.1, (hagree c).2.2.1, (hagree c).2.2.2.1]
    exact (Cert.Attn.alignMul_eq_alignDiv _ _ _ _ hf0 hf1 hf3 hL).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
